-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_100" .f32 0x3C23D70A#32 ((1 / 100 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_arg1 : IVec S2x800000 32) (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_c_16 : IVec S_ 32 := constantI S_ 32 0#32
  let main_v44 : IVec S2x800000 32 := broadcastInDim S2x800000 ![] bcast_S_S2x800000 main_c_16
  let main_v45 : IVec S2x800000 1 := cmpi .sge main_arg1 main_v44
  let main_c_17 : IVec S_ 32 := constantI S_ 32 50000#32
  let main_v46 : IVec S2x800000 32 := broadcastInDim S2x800000 ![] bcast_S_S2x800000 main_c_17
  let main_v47 : IVec S2x800000 1 := cmpi .slt main_arg1 main_v46
  let main_v48 : IVec S2x800000 1 := andi main_v45 main_v47
  let main_c_18 : IVec S_ 1 := constantI S_ 1 1#1
  let main_v49 : IVec S_ 1 := (fun x v => Host.reduce IntOp.andi x v reducesTo_S2x800000_S_d0_1 h_S_) main_v48 main_c_18
  let main_v50 : IVec S_ 1 := andi main_v43 main_v49
  main_v50

def fn_part1 {F : FTy → Type} [FloatOps F] (main_arg1 : IVec S2x800000 32) (main_arg5 : FVec F S128 .f32) (main_arg6 : FVec F S256x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_v33

def fn {F : FTy → Type} [FloatOps F] (main_arg0 : FVec F S50000x128 .f32) (main_arg1 : IVec S2x800000 32) (main_arg2 : FVec F S256x128 .f32) (main_arg3 : FVec F S128 .f32) (main_arg4 : FVec F S128x128 .f32) (main_arg5 : FVec F S128 .f32) (main_arg6 : FVec F S256x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S4000x128 : Shape := ⟨2, ![4000, 128]⟩
abbrev S4000x256 : Shape := ⟨2, ![4000, 256]⟩
abbrev S1x128 : Shape := ⟨2, ![1, 128]⟩
abbrev S2000x128 : Shape := ⟨2, ![2000, 128]⟩
abbrev S2000x256 : Shape := ⟨2, ![2000, 256]⟩

abbrev nBuf : Space → Nat
  | .hbm => 66
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S1, .i32⟩
  | .hbm, ⟨23, _⟩ => ⟨S_, .i32⟩
  | .hbm, ⟨24, _⟩ => ⟨S800000x1, .i32⟩
  | .hbm, ⟨25, _⟩ => ⟨S800000x1, .i1⟩
  | .hbm, ⟨26, _⟩ => ⟨S1x1, .i32⟩
  | .hbm, ⟨27, _⟩ => ⟨S800000x1, .i32⟩
  | .hbm, ⟨28, _⟩ => ⟨S800000x1, .i1⟩
  | .hbm, ⟨29, _⟩ => ⟨S800000x1, .i1⟩
  | .hbm, ⟨30, _⟩ => ⟨S_, .i1⟩
  | .hbm, ⟨31, _⟩ => ⟨S800000, .i1⟩
  | .hbm, ⟨32, _⟩ => ⟨S800000x128, .f32⟩
  | .hbm, ⟨33, _⟩ => ⟨S800000x128, .i1⟩
  | .hbm, ⟨34, _⟩ => ⟨S_, .f32⟩
  | .hbm, ⟨35, _⟩ => ⟨S800000x128, .f32⟩
  | .hbm, ⟨36, _⟩ => ⟨S800000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S1, .i32⟩
  | .hbm, ⟨46, _⟩ => ⟨S_, .i32⟩
  | .hbm, ⟨47, _⟩ => ⟨S800000x1, .i32⟩
  | .hbm, ⟨48, _⟩ => ⟨S800000x1, .i1⟩
  | .hbm, ⟨49, _⟩ => ⟨S1x1, .i32⟩
  | .hbm, ⟨50, _⟩ => ⟨S800000x1, .i32⟩
  | .hbm, ⟨51, _⟩ => ⟨S800000x1, .i1⟩
  | .hbm, ⟨52, _⟩ => ⟨S800000x1, .i1⟩
  | .hbm, ⟨53, _⟩ => ⟨S_, .i1⟩
  | .hbm, ⟨54, _⟩ => ⟨S800000, .i1⟩
  | .hbm, ⟨55, _⟩ => ⟨S800000x128, .f32⟩
  | .hbm, ⟨56, _⟩ => ⟨S800000x128, .i1⟩
  | .hbm, ⟨57, _⟩ => ⟨S_, .f32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S256x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S4000x128, .f32⟩
  | .local _ .vmem, ⟨9, _⟩ => ⟨S4000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S256x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v5 : Ref sig .tc := ⟨.hbm, 59, rfl⟩
abbrev main_v6 : Ref sig .tc := ⟨.hbm, 60, rfl⟩
abbrev main_cst : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  concatenates_S4000x128_S4000x128_S4000x256_d1 : Shape.Concatenates [S4000x128, S4000x128] S4000x256 1
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x256_d1 : Shape.Concatenates [S2000x128, S2000x128] S2000x256 1
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  dot_S4000x256_S256x128_S4000x128_1_0_0_1_n_n_wf : DotDims.WF S4000x256 S256x128 S4000x128 [1] [0] [0] [1] [] []
  dot_S4000x128_S128x128_S4000x128_1_0_0_1_n_n_wf : DotDims.WF S4000x128 S128x128 S4000x128 [1] [0] [0] [1] [] []
  scatter_S50000x128_S800000x1_S800000x128_1_0_0_1_wf : ScatterDims.WF S50000x128 S800000x1 S800000x128 [1] [0] [0] 1
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S800000x128.size a
  hwx0_6 : ∀ i : grid0.Coords, EltTy.bits .f32 = 32 ∨ (Rect.block (s := S800000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩
abbrev S50000x256 : Shape := ⟨2, ![50000, 256]⟩

abbrev nBuf : Space → Nat
  | .hbm => 85
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S800000x256, .f32⟩
  | .hbm, ⟨33, _⟩ => ⟨S800000x128, .f32⟩
  | .hbm, ⟨34, _⟩ => ⟨S1x128, .f32⟩
  | .hbm, ⟨35, _⟩ => ⟨S800000x128, .f32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S800000x128, .f32⟩
  | .hbm, ⟨41, _⟩ => ⟨S800000x128, .f32⟩
  | .hbm, ⟨42, _⟩ => ⟨S_, .f32⟩
  | .hbm, ⟨43, _⟩ => ⟨S800000x128, .f32⟩
  | .hbm, ⟨44, _⟩ => ⟨S800000x128, .f32⟩
  | .hbm, ⟨45, _⟩ => ⟨S800000x128, .f32⟩
  | .hbm, ⟨46, _⟩ => ⟨S800000x128, .f32⟩
  | .hbm, ⟨47, _⟩ => ⟨S1x128, .f32⟩
  | .hbm, ⟨48, _⟩ => ⟨S800000x128, .f32⟩
  | .hbm, ⟨49, _⟩ => ⟨S800000x128, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S800000x128, .f32⟩
  | .hbm, ⟨57, _⟩ => ⟨S800000x128, .f32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S50000x256, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v28 : Ref sig .tc := ⟨.hbm, 58, rfl⟩
abbrev main_cst : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_3 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_call2_v0 : Ref sig .tc := ⟨.hbm, 71, rfl⟩
abbrev main_call2_v1 : Ref sig .tc := ⟨.hbm, 72, rfl⟩
abbrev main_call2_cst : Ref sig .tc := ⟨.hbm, 73, rfl⟩
abbrev main_call2_v2 : Ref sig .tc := ⟨.hbm, 74, rfl⟩
abbrev main_call2_v3 : Ref sig .tc := ⟨.hbm, 75, rfl⟩
abbrev main_call2_cst_0 : Ref sig .tc := ⟨.hbm, 76, rfl⟩
abbrev main_call2_v4 : Ref sig .tc := ⟨.hbm, 77, rfl⟩
abbrev main_call2_v5 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.HostTerms.lean ====
/-
  The host side of the tiled program, as named functions of its arguments.

  The edge list is an array of two rows of node ids: row 0 the source of each edge, row 1 its target. A node id is
  turned into a start index for a row lookup by counting a negative id from the end (`id + 50000`). The lookup of
  the tiled program replaces a looked-up row by a fill value wherever the start index falls outside `0 … 49999`; the
  aggregation adds each edge's message row into the row of its source node, starting from zeros.
-/
import proofs.«416374_j4140348473947_1_alg».proof.Proof.Gen.KernelIdeal

noncomputable section

namespace Cert.Gcl.K

open Idealize.ShloMosaic Cert.KernelIdeal Cert.KernelIdeal.Facts₀ Cert.KernelIdeal.Facts

variable {F : FTy → Type} [FloatOps F]

/-- Row 0 of the edge list: each edge's source node id. -/
def ids0 (x1 : IVec S2x800000 32) : IVec S800000 32 :=
  shapeCast _ (extractStridedSlice S1x800000 ![0, 0] x1 slices_S2x800000_S1x800000_0_0) shapeCasts_S1x800000_S800000

/-- Row 1 of the edge list: each edge's target node id. -/
def ids1 (x1 : IVec S2x800000 32) : IVec S800000 32 :=
  shapeCast _ (extractStridedSlice S1x800000 ![1, 0] x1 slices_S2x800000_S1x800000_1_0) shapeCasts_S1x800000_S800000

/-- The start indices of a row lookup: an id below zero is counted from the end. -/
def starts (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-- The rows of `x0` at the start indices (a start index outside the table is moved to its nearest row). -/
def rows (x0 : FVec F S50000x128 .f32) (r : IVec S800000 32) : FVec F S800000x128 .f32 :=
  Host.gather gather_S50000x128_S800000x1_S800000x128_1_0_n_n_0_1_1128 x0 (starts r)

/-- Whether a start index lies in `0 … 49999`, per edge. -/
def inside (r : IVec S800000 32) : IVec S800000 1 :=
  Host.reduce IntOp.andi
    (andi (cmpi .sge (starts r) (broadcastInDim S800000x1 ![] bcast_S_S800000x1 (constantI S_ 32 0#32)))
      (cmpi .sle (starts r) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The looked-up rows, each replaced by the fill value where its start index is outside the table. -/
def rowsOrFill (x0 : FVec F S50000x128 .f32) (r : IVec S800000 32) : FVec F S800000x128 .f32 :=
  select (broadcastInDim S800000x128 ![0] bcast_S800000_S800000x128_0 (inside r)) (rows x0 r)
    (broadcastInDim S800000x128 ![] bcast_S_S800000x128 (constant S_ .f32 0x7FC00000#32))

/-- Each edge's message row added into the row of the edge's source node, from zeros. -/
def sums (r : IVec S800000 32) (u : FVec F S800000x128 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 r) u

end Cert.Gcl.K

end
-- ==== Proof.LibTypedRef.lean ====
/-
  Typed references: writing a value through a typed reference and reading it back is the identity.

  A typed reference carries the type of the tensor value its buffer holds together with a proof that the buffer's
  declared type is that type; contents are moved between the two types along that proof. Moving there and back
  along one proof is the identity, whatever the reference.
-/
import Idealize.ShloMosaic.Lib.StableHlo

namespace Idealize.ShloMosaic.StableHlo.TRef

variable {sig : RefSig} {Val : EltTy → Type} {T : BufTy}

/-- Contents written through a typed reference and read back through it are unchanged. -/
theorem ofBuf_toBuf (x : TRef sig T) (v : T.Contents Val) : x.ofBuf (x.toBuf v) = v := by
  obtain ⟨r, h, _, _⟩ := x
  subst h
  rfl

end Idealize.ShloMosaic.StableHlo.TRef
-- ==== Proof.HostSide.lean ====
/-
  What the two launches find and leave, read off the fold of the program's segments.

  The first launch finds the two looked-up arrays (each with its fill rule) and the first four weight arrays as launched;
  it leaves the message array. The second launch finds the node features and the remaining weight arrays as launched
  and the aggregation of the message array the first launch left; it leaves the updated node features. Nothing after
  the first launch writes the message array again.
-/
import proofs.«416374_j4140348473947_1_alg».proof.Proof.Gen.KernelIdeal.Frame
import proofs.«416374_j4140348473947_1_alg».proof.Proof.HostTerms
import proofs.«416374_j4140348473947_1_alg».proof.Proof.LibTypedRef
import Idealize.ShloMosaic.Lib.StableHlo.Run

set_option maxRecDepth 16384

noncomputable section

namespace Cert.Gcl

open Idealize.ShloMosaic Idealize.ShloMosaic.TcCoe Idealize.SL.Sem Idealize.ShloMosaic.StableHlo
open Cert.KernelIdeal Cert.KernelIdeal.Gen

variable {F : FTy → Type} [FloatOps F] [Named F]
variable (m : (ℓ : Loc nD τ sig) → Buf (Elt F) ℓ) (ρ : Dev nD → PrngReg)

/-! ## Typed references at the literal buffers of the two lookups

A buffer's declared type is the type of the value it holds, so moving contents along that equation is the identity. -/

theorem read_v1 (h1 h2 h3) (w : (main_v1 : Ref sig .tc).ty.Contents (Elt F)) :
    (TRef.of (T := ⟨S800000, .i32⟩) main_v1 h1 h2 h3).ofBuf w = w := rfl
theorem read_v3 (h1 h2 h3) (w : (main_v3 : Ref sig .tc).ty.Contents (Elt F)) :
    (TRef.of (T := ⟨S800000, .i32⟩) main_v3 h1 h2 h3).ofBuf w = w := rfl
theorem read_arg0 (h1 h2 h3) (w : (main_arg0 : Ref sig .tc).ty.Contents (Elt F)) :
    (TRef.of (T := ⟨S50000x128, .f32⟩) main_arg0 h1 h2 h3).ofBuf w = w := rfl
theorem write_v4 (h1 h2 h3) (w : (⟨S800000x128, .f32⟩ : BufTy).Contents (Elt F)) :
    (TRef.of (T := ⟨S800000x128, .f32⟩) main_v4 h1 h2 h3).toBuf w = w := rfl
theorem write_v5 (h1 h2 h3) (w : (⟨S800000x128, .f32⟩ : BufTy).Contents (Elt F)) :
    (TRef.of (T := ⟨S800000x128, .f32⟩) main_v5 h1 h2 h3).toBuf w = w := rfl

/-! ## Entering the first launch -/

set_option maxHeartbeats 2000000 in
/-- The source rows, with the fill rule. -/
theorem W3_v4 (c : Dev nD) : W3 m ρ c (Proc.devRef .tc main_v4)
    = K.rowsOrFill (m ((c : Thread nD τ).loc main_arg0)) (K.ids0 (m ((c : Thread nD τ).loc main_arg1))) := by
  dsimp only [W3, W2, W1, hostOps0_2, hostOps0_1, hostOps0]
  after_results_simp
  simp only [TRef.ofBuf_toBuf, read_v1, read_arg0, write_v4]
  rfl

set_option maxHeartbeats 2000000 in
/-- The target rows, with the fill rule. -/
theorem W3_v5 (c : Dev nD) : W3 m ρ c (Proc.devRef .tc main_v5)
    = K.rowsOrFill (m ((c : Thread nD τ).loc main_arg0)) (K.ids1 (m ((c : Thread nD τ).loc main_arg1))) := by
  dsimp only [W3, W2, W1, hostOps0_2, hostOps0_1, hostOps0]
  after_results_simp
  simp only [TRef.ofBuf_toBuf, read_v3, read_arg0, write_v5]
  rfl

set_option maxHeartbeats 2000000 in
/-- The source ids. -/
theorem W3_v1 (c : Dev nD) : W3 m ρ c (Proc.devRef .tc main_v1) = K.ids0 (m ((c : Thread nD τ).loc main_arg1)) := by
  dsimp only [W3, W2, W1, hostOps0_2, hostOps0_1, hostOps0]
  after_results_simp
  rfl

set_option maxHeartbeats 2000000 in
theorem W3_arg0 (c : Dev nD) : W3 m ρ c (Proc.devRef .tc main_arg0) = m ((c : Thread nD τ).loc main_arg0) := by
  dsimp only [W3, W2, W1, hostOps0_2, hostOps0_1, hostOps0]
  after_results_simp
set_option maxHeartbeats 2000000 in
theorem W3_arg2 (c : Dev nD) : W3 m ρ c (Proc.devRef .tc main_arg2) = m ((c : Thread nD τ).loc main_arg2) := by
  dsimp only [W3, W2, W1, hostOps0_2, hostOps0_1, hostOps0]
  after_results_simp
set_option maxHeartbeats 2000000 in
theorem W3_arg3 (c : Dev nD) : W3 m ρ c (Proc.devRef .tc main_arg3) = m ((c : Thread nD τ).loc main_arg3) := by
  dsimp only [W3, W2, W1, hostOps0_2, hostOps0_1, hostOps0]
  after_results_simp
set_option maxHeartbeats 2000000 in
theorem W3_arg4 (c : Dev nD) : W3 m ρ c (Proc.devRef .tc main_arg4) = m ((c : Thread nD τ).loc main_arg4) := by
  dsimp only [W3, W2, W1, hostOps0_2, hostOps0_1, hostOps0]
  after_results_simp
set_option maxHeartbeats 2000000 in
theorem W3_arg5 (c : Dev nD) : W3 m ρ c (Proc.devRef .tc main_arg5) = m ((c : Thread nD τ).loc main_arg5) := by
  dsimp only [W3, W2, W1, hostOps0_2, hostOps0_1, hostOps0]
  after_results_simp
set_option maxHeartbeats 2000000 in
theorem W3_arg6 (c : Dev nD) : W3 m ρ c (Proc.devRef .tc main_arg6) = m ((c : Thread nD τ).loc main_arg6) := by
  dsimp only [W3, W2, W1, hostOps0_2, hostOps0_1, hostOps0]
  after_results_simp
set_option maxHeartbeats 2000000 in
theorem W3_arg7 (c : Dev nD) : W3 m ρ c (Proc.devRef .tc main_arg7) = m ((c : Thread nD τ).loc main_arg7) := by
  dsimp only [W3, W2, W1, hostOps0_2, hostOps0_1, hostOps0]
  after_results_simp
set_option maxHeartbeats 2000000 in
theorem W3_arg8 (c : Dev nD) : W3 m ρ c (Proc.devRef .tc main_arg8) = m ((c : Thread nD τ).loc main_arg8) := by
  dsimp only [W3, W2, W1, hostOps0_2, hostOps0_1, hostOps0]
  after_results_simp
set_option maxHeartbeats 2000000 in
theorem W3_arg9 (c : Dev nD) : W3 m ρ c (Proc.devRef .tc main_arg9) = m ((c : Thread nD τ).loc main_arg9) := by
  dsimp only [W3, W2, W1, hostOps0_2, hostOps0_1, hostOps0]
  after_results_simp

/-! ## Leaving the first launch, entering the second -/

/-- The message array is what the first launch's write-backs leave. -/
theorem W4_v6 (c : Dev nD) : W4 m ρ c (Proc.devRef .tc main_v6) = (dat0 (V3 m ρ) c).arrAt 6 cfg0.N := W4_arr m ρ c 6

/-- The aggregated messages: the message array summed into the rows of the source ids. -/
theorem W5_v9 (c : Dev nD) : W5 m ρ c (Proc.devRef .tc main_v9)
    = K.sums (K.ids0 (m ((c : Thread nD τ).loc main_arg1))) (W4 m ρ c (Proc.devRef .tc main_v6)) := by
  have e : W4 m ρ c (Proc.devRef .tc main_v1) = K.ids0 (m ((c : Thread nD τ).loc main_arg1)) :=
    (W4_of_ne m ρ c main_v1 (by decide)).trans (W3_v1 m ρ c)
  rw [← e]
  dsimp only [W5, hostOps1]
  after_results_simp
  rfl

theorem W5_arg0 (c : Dev nD) : W5 m ρ c (Proc.devRef .tc main_arg0) = m ((c : Thread nD τ).loc main_arg0) := by
  refine Eq.trans ?_ ((W4_of_ne m ρ c main_arg0 (by decide)).trans (W3_arg0 m ρ c))
  dsimp only [W5, hostOps1]
  after_results_simp
theorem W5_arg6 (c : Dev nD) : W5 m ρ c (Proc.devRef .tc main_arg6) = m ((c : Thread nD τ).loc main_arg6) := by
  refine Eq.trans ?_ ((W4_of_ne m ρ c main_arg6 (by decide)).trans (W3_arg6 m ρ c))
  dsimp only [W5, hostOps1]
  after_results_simp
theorem W5_arg7 (c : Dev nD) : W5 m ρ c (Proc.devRef .tc main_arg7) = m ((c : Thread nD τ).loc main_arg7) := by
  refine Eq.trans ?_ ((W4_of_ne m ρ c main_arg7 (by decide)).trans (W3_arg7 m ρ c))
  dsimp only [W5, hostOps1]
  after_results_simp
theorem W5_arg8 (c : Dev nD) : W5 m ρ c (Proc.devRef .tc main_arg8) = m ((c : Thread nD τ).loc main_arg8) := by
  refine Eq.trans ?_ ((W4_of_ne m ρ c main_arg8 (by decide)).trans (W3_arg8 m ρ c))
  dsimp only [W5, hostOps1]
  after_results_simp
theorem W5_arg9 (c : Dev nD) : W5 m ρ c (Proc.devRef .tc main_arg9) = m ((c : Thread nD τ).loc main_arg9) := by
  refine Eq.trans ?_ ((W4_of_ne m ρ c main_arg9 (by decide)).trans (W3_arg9 m ρ c))
  dsimp only [W5, hostOps1]
  after_results_simp

/-! ## Leaving the second launch -/

/-- The updated node features are what the second launch's write-backs leave. -/
theorem W6_v10 (c : Dev nD) : W6 m ρ c (Proc.devRef .tc main_v10) = (dat1 (V5 m ρ) c).arrAt 6 cfg1.N := W6_arr m ρ c 6

/-- Nothing after the first launch writes the message array. -/
theorem W6_v6 (c : Dev nD) : W6 m ρ c (Proc.devRef .tc main_v6) = (dat0 (V3 m ρ) c).arrAt 6 cfg0.N := by
  refine (W6_of_ne m ρ c main_v6 (by decide)).trans (Eq.trans ?_ (W4_v6 m ρ c))
  dsimp only [W5, hostOps1]
  after_results_simp

end Cert.Gcl

end
-- ==== Proof.Spec.lean ====
/-
  The message-passing layer as a function of rows, over the extended reals.

  Every output row of either stage depends on one row of each data operand and on the whole weight
  matrices. A DENSE LAYER sends a row `x` of length `K` to the row `k ↦ Σ_l x l · W (l, k) + b k` of length 128;
  `silu z = z · σ(z)` with `σ z = 1 / (1 + e^(-z))`. The edge stage joins the two endpoint rows of an edge (source
  features first, then target features) into a row of length 256 and applies two dense layers, each followed by
  `silu`. The node stage joins a node's own row with its aggregated messages scaled by 1/100, applies a dense
  layer, `silu`, a second dense layer, and adds the node's own row back (the residual).

  These definitions mention no program: both the tiled computation and the whole-array computation are shown, each in its own
  module, to produce exactly these rows.
-/
import Idealize.ShloMosaic.PureOps.Ideal
import Idealize.ShloMosaic.Lib.ValueIdx

noncomputable section

namespace Cert.Gcl

open Idealize.ShloMosaic Idealize.ShloMosaic.ValueIdx

/-- `z · σ(z)`, with `σ` the logistic function on the extended reals (`σ(-∞) = 0`, `σ(+∞) = 1`). -/
def silu (z : EReal) : EReal := z * Ideal.logistic z

/-- One dense layer at output column `k`: `Σ_l x l · W (l, k) + b k`. -/
def dense {K : Nat} (x : Fin K → EReal) (W : (⟨2, ![K, 128]⟩ : Shape).Idx → EReal) (b : (⟨1, ![128]⟩ : Shape).Idx → EReal)
    (k : Fin 128) : EReal :=
  (∑ l : Fin K, x l * W (ix2 l k)) + b (ix1 k)

/-- Two rows of length 128 laid end to end. -/
def join (x y : Fin 128 → EReal) (l : Fin 256) : EReal :=
  if h : l.val < 128 then x ⟨l.val, h⟩ else y ⟨l.val - 128, by have := l.isLt; omega⟩

/-- The edge stage on one edge: `silu (dense (silu (dense (source ‖ target))))`. -/
def edgeRow (xs xt : Fin 128 → EReal) (W1 : (⟨2, ![256, 128]⟩ : Shape).Idx → EReal) (b1 : (⟨1, ![128]⟩ : Shape).Idx → EReal)
    (W2 : (⟨2, ![128, 128]⟩ : Shape).Idx → EReal) (b2 : (⟨1, ![128]⟩ : Shape).Idx → EReal) (j : Fin 128) : EReal :=
  silu (dense (fun k => silu (dense (join xs xt) W1 b1 k)) W2 b2 j)

/-- The node stage on one node: `h + dense (silu (dense (h ‖ a / 100)))`, the division written as the product with 1/100. -/
def nodeRow (h a : Fin 128 → EReal) (W1 : (⟨2, ![256, 128]⟩ : Shape).Idx → EReal) (b1 : (⟨1, ![128]⟩ : Shape).Idx → EReal)
    (W2 : (⟨2, ![128, 128]⟩ : Shape).Idx → EReal) (b2 : (⟨1, ![128]⟩ : Shape).Idx → EReal) (j : Fin 128) : EReal :=
  h j + dense (fun k => silu (dense (join h (fun l => a l * ((1 / 100 : ℝ) : EReal))) W1 b1 k)) W2 b2 j

/-- Row `r` of an array of rows of length 128. -/
def rowOf {R : Nat} (A : (⟨2, ![R, 128]⟩ : Shape).Idx → EReal) (r : Fin R) : Fin 128 → EReal := fun l => A (ix2 r l)

/-- The edge stage on every row of two arrays of `R` rows. -/
def edgeArr {R : Nat} (S T : (⟨2, ![R, 128]⟩ : Shape).Idx → EReal) (W1 : (⟨2, ![256, 128]⟩ : Shape).Idx → EReal)
    (b1 : (⟨1, ![128]⟩ : Shape).Idx → EReal) (W2 : (⟨2, ![128, 128]⟩ : Shape).Idx → EReal) (b2 : (⟨1, ![128]⟩ : Shape).Idx → EReal) :
    (⟨2, ![R, 128]⟩ : Shape).Idx → EReal :=
  fun i => edgeRow (rowOf S (i 0)) (rowOf T (i 0)) W1 b1 W2 b2 (i 1)

/-- The node stage on every row of two arrays of `R` rows. -/
def nodeArr {R : Nat} (H A : (⟨2, ![R, 128]⟩ : Shape).Idx → EReal) (W1 : (⟨2, ![256, 128]⟩ : Shape).Idx → EReal)
    (b1 : (⟨1, ![128]⟩ : Shape).Idx → EReal) (W2 : (⟨2, ![128, 128]⟩ : Shape).Idx → EReal) (b2 : (⟨1, ![128]⟩ : Shape).Idx → EReal) :
    (⟨2, ![R, 128]⟩ : Shape).Idx → EReal :=
  fun i => nodeRow (rowOf H (i 0)) (rowOf A (i 0)) W1 b1 W2 b2 (i 1)

theorem edgeArr_apply {R : Nat} (S T : (⟨2, ![R, 128]⟩ : Shape).Idx → EReal) (W1 : (⟨2, ![256, 128]⟩ : Shape).Idx → EReal)
    (b1 : (⟨1, ![128]⟩ : Shape).Idx → EReal) (W2 : (⟨2, ![128, 128]⟩ : Shape).Idx → EReal) (b2 : (⟨1, ![128]⟩ : Shape).Idx → EReal)
    (r : Fin R) (j : Fin 128) :
    edgeArr S T W1 b1 W2 b2 (ix2 r j) = edgeRow (rowOf S r) (rowOf T r) W1 b1 W2 b2 j := rfl

theorem nodeArr_apply {R : Nat} (H A : (⟨2, ![R, 128]⟩ : Shape).Idx → EReal) (W1 : (⟨2, ![256, 128]⟩ : Shape).Idx → EReal)
    (b1 : (⟨1, ![128]⟩ : Shape).Idx → EReal) (W2 : (⟨2, ![128, 128]⟩ : Shape).Idx → EReal) (b2 : (⟨1, ![128]⟩ : Shape).Idx → EReal)
    (r : Fin R) (j : Fin 128) :
    nodeArr H A W1 b1 W2 b2 (ix2 r j) = nodeRow (rowOf H r) (rowOf A r) W1 b1 W2 b2 j := rfl

end Cert.Gcl

end
-- ==== Proof.EdgeBody.lean ====
/-
  The edge stage of the tiled program on one tile: the value its body stores, read at an index, is the edge stage of
  the rows of its two loaded tiles.
-/
import proofs.«416374_j4140348473947_1_alg».proof.Proof.Gen.KernelIdeal.Skeleton
import proofs.«416374_j4140348473947_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Gcl

open Idealize.ShloMosaic Idealize.ShloMosaic.ValueIdx Cert.KernelIdeal Cert.KernelIdeal.Gen

/-! ## The first product: a row of length 256 against the 256 × 128 weights -/

theorem lhs_dot1_0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem lhs_dot1_1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
theorem rhs_dot1_0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
theorem rhs_dot1_1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- The first product at row `p`, column `q`: the sum over the 256 joined features. -/
theorem matmul1_apply (A : FVec Ideal S4000x256 .bf16) (B : FVec Ideal S256x128 .bf16) (p : Fin 4000) (q : Fin 128) :
    matmul dot_S4000x256_S256x128_S4000x128_1_0_0_1_n_n none A B (constant (F := Ideal) S4000x128 .f32 0x00000000#32) (ix2 p q)
      = ∑ k : Fin 256, A (ix2 p k) * B (ix2 k q) := by
  refine (Ideal.matmul_constant_zero_apply dot_S4000x256_S256x128_S4000x128_1_0_0_1_n_n none A B (ix2 p q)).trans ?_
  rw [← Equiv.sum_comp (ValueIdx.contrEquiv1 dot_S4000x256_S256x128_S4000x128_1_0_0_1_n_n 256 rfl rfl).symm]
  refine Finset.sum_congr rfl fun k _ => ?_
  have hk := ValueIdx.contrEquiv1_symm_val dot_S4000x256_S256x128_S4000x128_1_0_0_1_n_n 256 rfl rfl k
  have el : dot_S4000x256_S256x128_S4000x128_1_0_0_1_n_n.lhsIdx (ix2 p q) ((ValueIdx.contrEquiv1 dot_S4000x256_S256x128_S4000x128_1_0_0_1_n_n 256 rfl rfl).symm k) = ix2 p k := funext fun a => Fin.ext (by
    match a with
    | ⟨0, _⟩ => exact lhs_dot1_0 _ _
    | ⟨1, _⟩ => exact (lhs_dot1_1 _ _).trans hk)
  have er : dot_S4000x256_S256x128_S4000x128_1_0_0_1_n_n.rhsIdx (ix2 p q) ((ValueIdx.contrEquiv1 dot_S4000x256_S256x128_S4000x128_1_0_0_1_n_n 256 rfl rfl).symm k) = ix2 k q := funext fun a => Fin.ext (by
    match a with
    | ⟨0, _⟩ => exact (rhs_dot1_0 _ _).trans hk
    | ⟨1, _⟩ => exact rhs_dot1_1 _ _)
  rw [el, er]

/-! ## The second product: a row of length 128 against the 128 × 128 weights -/

theorem lhs_dot2_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_dot2_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_dot2_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_dot2_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The second product at row `p`, column `q`: the sum over the 128 hidden features. -/
theorem matmul2_apply (A : FVec Ideal S4000x128 .bf16) (B : FVec Ideal S128x128 .bf16) (p : Fin 4000) (q : Fin 128) :
    matmul dot_S4000x128_S128x128_S4000x128_1_0_0_1_n_n none A B (constant (F := Ideal) S4000x128 .f32 0x00000000#32) (ix2 p q)
      = ∑ k : Fin 128, A (ix2 p k) * B (ix2 k q) := by
  refine (Ideal.matmul_constant_zero_apply dot_S4000x128_S128x128_S4000x128_1_0_0_1_n_n none A B (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_dot2_0 _ _
    | ⟨1, _⟩ => exact (lhs_dot2_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_dot2_0 _ _).trans hk
    | ⟨1, _⟩ => exact rhs_dot2_1 _ _)
  rw [el, er]

/-! ## The joined row and the bias row -/

/-- Two tiles laid side by side along the columns, read at row `p`: the two rows laid end to end. -/
theorem concat_apply (X Y : FVec Ideal S4000x128 .bf16) (p : Fin 4000) (l : Fin 256) :
    concatenate S4000x256 1 [⟨S4000x128, X⟩, ⟨S4000x128, Y⟩] concatenates_S4000x128_S4000x128_S4000x256_d1 (ix2 p l)
      = join (fun c => X (ix2 p c)) (fun c => Y (ix2 p c)) l := by
  unfold join
  split
  · next h =>
    exact concatenate_pair_apply_left (1 : Fin S4000x256.rank) X Y concatenates_S4000x128_S4000x128_S4000x256_d1 (ix2 p l) rfl
      (ix2 p ⟨l.val, h⟩) (fun b => by match b with | ⟨0, _⟩ => rfl | ⟨1, _⟩ => rfl)
  · next h =>
    exact concatenate_pair_apply_right (1 : Fin S4000x256.rank) X Y concatenates_S4000x128_S4000x128_S4000x256_d1 (ix2 p l) rfl rfl
      (ix2 p ⟨l.val - 128, by have := l.isLt; omega⟩)
      (fun b hb => by match b with | ⟨0, _⟩ => rfl | ⟨1, _⟩ => exact absurd rfl hb)
      (by show l.val - 128 + 128 = l.val; omega)

/-- A bias of length 128 viewed as one row and repeated down the 4000 rows reads its entry at the column. -/
theorem bias_apply (b : FVec Ideal S128 .f32) (p : Fin 4000) (q : Fin 128) :
    broadcastTo S4000x128 (shapeCast S1x128 b shapeCasts_S128_S1x128) broadcasts_S1x128_S4000x128 (ix2 p q) = b (ix1 q) :=
  (broadcastTo_1b_ab_apply (shapeCast S1x128 b shapeCasts_S128_S1x128) broadcasts_S1x128_S4000x128 p q).trans
    (shapeCast_a_1a_apply b shapeCasts_S128_S1x128 (0 : Fin 1) q)

/-- `z · σ(z)` entrywise, read at an index, is `silu` of the entry. -/
theorem silu_apply {s : Shape} (z : FVec Ideal s .f32) (i : s.Idx) : mulf z (logistic z) i = silu (z i) := rfl

/-- The first dense layer of the tile, before its activation, at row `p` and hidden column `k`. -/
theorem hidden_apply (x0 x1 : FVec Ideal S4000x128 .f32) (x2 : FVec Ideal S256x128 .f32) (x3 : FVec Ideal S128 .f32)
    (p : Fin 4000) (k : Fin 128) :
    addf
        (matmul dot_S4000x256_S256x128_S4000x128_1_0_0_1_n_n none
          (concatenate S4000x256 1
            [⟨S4000x128, truncf FTy.bf16 x0 bitsLt_bf16_f32⟩, ⟨S4000x128, truncf FTy.bf16 x1 bitsLt_bf16_f32⟩]
            concatenates_S4000x128_S4000x128_S4000x256_d1)
          (truncf FTy.bf16 x2 bitsLt_bf16_f32) (constant (F := Ideal) S4000x128 FTy.f32 0x00000000#32))
        (broadcastTo S4000x128 (shapeCast S1x128 x3 shapeCasts_S128_S1x128) broadcasts_S1x128_S4000x128) (ix2 p k)
      = dense (join (rowOf x0 p) (rowOf x1 p)) x2 x3 k := by
  unfold dense
  refine (addf_apply _ _ _).trans ?_
  refine congrArg₂ (· + ·) ((matmul1_apply _ _ p k).trans ?_) (bias_apply x3 p k)
  refine Finset.sum_congr rfl fun l _ => ?_
  refine congrArg (· * x2 (ix2 l k)) ?_
  exact concat_apply _ _ p l

/-- The stored tile is the edge stage of the two loaded tiles, row by row. -/
theorem edge_payload (x0 x1 : Vec Ideal S4000x128 .f32) (x2 : Vec Ideal S256x128 .f32) (x3 : Vec Ideal S128 .f32)
    (x4 : Vec Ideal S128x128 .f32) (x5 : Vec Ideal S128 .f32) :
    k0_pay1 (F := Ideal) x0 x1 x2 x3 x4 x5 = edgeArr x0 x1 x2 x3 x4 x5 := by
  funext i
  obtain ⟨p, q, rfl⟩ : ∃ (p : Fin 4000) (q : Fin 128), i = ix2 p q := ⟨i 0, i 1, eq_ix2 i⟩
  rw [edgeArr_apply]
  unfold k0_pay1 edgeRow dense
  -- a cast to the same shape changes nothing
  have e0 : shapeCast S4000x128 x0 shapeCasts_S4000x128_S4000x128 = x0 := shapeCast_self _ _
  have e1 : shapeCast S4000x128 x1 shapeCasts_S4000x128_S4000x128 = x1 := shapeCast_self _ _
  rw [e0, e1]
  -- the outer activation, then the second layer as a sum plus its bias
  refine (silu_apply _ _).trans (congrArg silu ?_)
  refine (addf_apply _ _ _).trans ?_
  refine congrArg₂ (· + ·) ((matmul2_apply _ _ p q).trans ?_) (bias_apply x5 p q)
  refine Finset.sum_congr rfl fun k _ => ?_
  refine congrArg (· * x4 (ix2 k q)) ?_
  -- the hidden entry: the inner activation of the first layer
  refine (truncf_apply (φ := .f32) (ψ := .bf16) _ bitsLt_bf16_f32 (ix2 p k)).trans ?_
  refine (silu_apply _ _).trans (congrArg silu ?_)
  exact hidden_apply x0 x1 x2 x3 p k

end Cert.Gcl

end
-- ==== Proof.Region0.lean ====
/-
  The message array the first launch leaves: tile `t` of the output holds the edge stage of tile `t` of the two
  looked-up arrays, the tiles are rows `4000 t … 4000 t + 3999` and cover the array, so the whole array is the edge stage of
  the two whole looked-up arrays, row by row.
-/
import proofs.«416374_j4140348473947_1_alg».proof.Proof.Gen.KernelIdeal.Frame
import proofs.«416374_j4140348473947_1_alg».proof.Proof.EdgeBody
import Idealize.ShloMosaic.Lib.Pipeline.Value

set_option maxRecDepth 16384

noncomputable section

namespace Cert.Gcl

open Idealize.ShloMosaic Idealize.ShloMosaic.TcCoe Idealize.SL.Sem Idealize.ShloMosaic.ValueIdx
open Cert.KernelIdeal Cert.KernelIdeal.Gen

/-- The zero offsets of a rectangle over two axes, however they are spelt. -/
theorem zero_off2 : (![0, 0] : Fin 2 → Nat) = fun _ => 0 := funext fun a => by fin_cases a <;> rfl

/-- The zero offset of a rectangle over one axis. -/
theorem zero_off1 : (![0] : Fin 1 → Nat) = fun _ => 0 := funext fun a => by fin_cases a; rfl

/-- The edge stage at an index reads its two data arrays only along that index's row, and its value depends on the
    index only through that row's contents and the column: two settings that agree there give the same entry. -/
theorem edgeArr_congr {R R' : Nat}
    (S T : (⟨2, ![R, 128]⟩ : Shape).Idx → EReal) (S' T' : (⟨2, ![R', 128]⟩ : Shape).Idx → EReal)
    (W1 W1' : (⟨2, ![256, 128]⟩ : Shape).Idx → EReal) (b1 b1' : (⟨1, ![128]⟩ : Shape).Idx → EReal)
    (W2 W2' : (⟨2, ![128, 128]⟩ : Shape).Idx → EReal) (b2 b2' : (⟨1, ![128]⟩ : Shape).Idx → EReal)
    (i : (⟨2, ![R, 128]⟩ : Shape).Idx) (i' : (⟨2, ![R', 128]⟩ : Shape).Idx)
    (hS : ∀ l : Fin 128, S (ix2 (i 0) l) = S' (ix2 (i' 0) l))
    (hT : ∀ l : Fin 128, T (ix2 (i 0) l) = T' (ix2 (i' 0) l))
    (hW1 : W1 = W1') (hb1 : b1 = b1') (hW2 : W2 = W2') (hb2 : b2 = b2')
    (hj : (i 1).val = (i' 1).val) :
    edgeArr S T W1 b1 W2 b2 i = edgeArr S' T' W1' b1' W2' b2' i' := by
  subst hW1 hb1 hW2 hb2
  have hS' : rowOf S (i 0) = rowOf S' (i' 0) := funext hS
  have hT' : rowOf T (i 0) = rowOf T' (i' 0) := funext hT
  have hj' : (i 1 : Fin 128) = i' 1 := Fin.ext hj
  show edgeRow (rowOf S (i 0)) (rowOf T (i 0)) W1 b1 W2 b2 (i 1)
    = edgeRow (rowOf S' (i' 0)) (rowOf T' (i' 0)) W1 b1 W2 b2 (i' 1)
  rw [hS', hT', hj']

/-- The printed index maps, decided over the 200 grid points: the two data windows move with the output window, whose
    tile index along the rows is the point's number and along the columns is 0; the weight and bias windows stay at
    block 0. -/
theorem tile_index : ∀ t : Fin cfg0.N,
    win0_0.index t (0 : Fin 2) = win0_6.index t (0 : Fin 2) ∧ win0_0.index t (1 : Fin 2) = win0_6.index t (1 : Fin 2)
    ∧ win0_1.index t (0 : Fin 2) = win0_6.index t (0 : Fin 2) ∧ win0_1.index t (1 : Fin 2) = win0_6.index t (1 : Fin 2)
    ∧ win0_6.index t (0 : Fin 2) = t.val ∧ win0_6.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 :=
  (by decide +kernel : ∀ t : Fin grid0.N, _)

variable (V : (c : Dev nD) → (b : Ref sig .tc) → Buf (Elt Ideal) ((c : Thread nD τ).loc b))

/-- What point t writes back is tile t of the edge stage of the whole arrays. -/
theorem edge_flushed (c : Dev nD) (t : Fin cfg0.N) :
    (dat0 (F := Ideal) V c).flushed 6 t = ((cfg0.win 6).blk t).view.read (Elt Ideal)
      (edgeArr (V c main_v4) (V c main_v5) (V c main_arg2) (V c main_arg3) (V c main_arg4) (V c main_arg5)) := by
  show (cfg0.win 6).cut (grid0.coords t) ((dat0 (F := Ideal) V c).after 6 t) = _
  rw [after0_6]
  unfold out0_6
  rw [View.canon_unit_zero zero_off2]
  simp only [View.ld_unit_zero (S := S4000x128) zero_off2, View.ld_unit_zero (S := S256x128) zero_off2,
    View.ld_unit_zero (S := S128x128) zero_off2, View.ld_unit_zero (S := S128) zero_off1]
  rw [edge_payload]
  obtain ⟨e00, e01, e10, e11, e60, e61, e20, e21, e30, e40, e41, e50⟩ := tile_index t
  funext j
  show edgeArr (iblk0 V c 0 t) (iblk0 V c 1 t) (iblk0 V c 2 t) (iblk0 V c 3 t) (iblk0 V c 4 t) (iblk0 V c 5 t) j
    = edgeArr (V c main_v4) (V c main_v5) (V c main_arg2) (V c main_arg3) (V c main_arg4) (V c main_arg5)
        (((cfg0.win 6).blk t).view.emb j)
  refine edgeArr_congr (R := 4000) (R' := 800000) (iblk0 V c 0 t) (iblk0 V c 1 t) (V c main_v4) (V c main_v5)
    (iblk0 V c 2 t) (V c main_arg2) (iblk0 V c 3 t) (V c main_arg3) (iblk0 V c 4 t) (V c main_arg4)
    (iblk0 V c 5 t) (V c main_arg5) j (((cfg0.win 6).blk t).view.emb j) ?_ ?_ ?_ ?_ ?_ ?_ ?_
  · intro l
    show V c main_v4 (((cfg0.win 0).blk t).view.emb (ix2 (j 0) l)) = V c main_v4 (ix2 ((((cfg0.win 6).blk t).view.emb j) 0) l)
    refine congrArg _ (funext fun a => Fin.ext ?_)
    match a with
    | ⟨0, _⟩ => show win0_0.index t (0 : Fin 2) * 4000 + 1 * (j 0).val = win0_6.index t (0 : Fin 2) * 4000 + 1 * (j 0).val; omega
    | ⟨1, _⟩ => show win0_0.index t (1 : Fin 2) * 128 + 1 * l.val = l.val; omega
  · intro l
    show V c main_v5 (((cfg0.win 1).blk t).view.emb (ix2 (j 0) l)) = V c main_v5 (ix2 ((((cfg0.win 6).blk t).view.emb j) 0) l)
    refine congrArg _ (funext fun a => Fin.ext ?_)
    match a with
    | ⟨0, _⟩ => show win0_1.index t (0 : Fin 2) * 4000 + 1 * (j 0).val = win0_6.index t (0 : Fin 2) * 4000 + 1 * (j 0).val; omega
    | ⟨1, _⟩ => show win0_1.index t (1 : Fin 2) * 128 + 1 * l.val = l.val; omega
  · funext y
    show V c main_arg2 (((cfg0.win 2).blk t).view.emb y) = V c main_arg2 y
    refine congrArg _ (funext fun a => Fin.ext ?_)
    match a with
    | ⟨0, _⟩ => show win0_2.index t (0 : Fin 2) * 256 + 1 * (y 0).val = (y 0).val; omega
    | ⟨1, _⟩ => show win0_2.index t (1 : Fin 2) * 128 + 1 * (y 1).val = (y 1).val; omega
  · funext y
    show V c main_arg3 (((cfg0.win 3).blk t).view.emb y) = V c main_arg3 y
    refine congrArg _ (funext fun a => Fin.ext ?_)
    match a with
    | ⟨0, _⟩ => show win0_3.index t (0 : Fin 1) * 128 + 1 * (y 0).val = (y 0).val; omega
  · funext y
    show V c main_arg4 (((cfg0.win 4).blk t).view.emb y) = V c main_arg4 y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · funext y
    show V c main_arg5 (((cfg0.win 5).blk t).view.emb y) = V c main_arg5 y
    refine congrArg _ (funext fun a => Fin.ext ?_)
    match a with
    | ⟨0, _⟩ => show win0_5.index t (0 : Fin 1) * 128 + 1 * (y 0).val = (y 0).val; omega
  · show (j 1).val = win0_6.index t (1 : Fin 2) * 128 + 1 * (j 1).val
    omega

/-- An index of the message array is in point t's tile iff each coordinate is in the tile's range on its axis. -/
theorem mem_tile (t : Fin cfg0.N) (i : S800000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v6).slice (win0_6.rect t)).set ↔ _
  rw [View.set_slice_whole, Rect.mem_set_unit]
  exact Iff.rfl

/-- The 200 tiles of 4000 rows cover the 800000 rows: row r lies in tile r / 4000, and every column in the one
    column block. -/
theorem edge_cover (i : S800000x128.Idx) :
    ∃ t : Fin cfg0.N, (cfg0.win 6).flush t = true ∧ i ∈ ((cfg0.win 6).blk t).view.set := by
  have hi0 : (i 0).val < 800000 := (i 0).isLt
  have hi1 : (i 1).val < 128 := (i 1).isLt
  have hlt : (i 0).val / 4000 < cfg0.N := by show _ < 200; omega
  obtain ⟨t, ht⟩ : ∃ t : Fin cfg0.N, t.val = (i 0).val / 4000 := ⟨⟨(i 0).val / 4000, hlt⟩, rfl⟩
  obtain ⟨-, -, -, -, e60, e61, -⟩ := tile_index t
  refine ⟨t, flush0_6 t, ?_⟩
  rw [mem_tile]
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 128 ≤ (i 1).val ∧ (i 1).val < win0_6.index t (1 : Fin 2) * 128 + 128
    omega

/-- After the first launch the message array is the edge stage of the arrays the launch found, whatever they are. -/
theorem edge_region (c : Dev nD) :
    (dat0 (F := Ideal) V c).arrAt 6 cfg0.N
      = edgeArr (V c main_v4) (V c main_v5) (V c main_arg2) (V c main_arg3) (V c main_arg4) (V c main_arg5) :=
  (dat0 (F := Ideal) V c).arrAt_eq_of_cover 6
    (edgeArr (V c main_v4) (V c main_v5) (V c main_arg2) (V c main_arg3) (V c main_arg4) (V c main_arg5))
    (fun t _ => edge_flushed V c t) edge_cover

end Cert.Gcl

end
-- ==== Proof.NodeBody.lean ====
/-
  The node stage of the tiled program on one tile: the value its body stores, read at an index, is the node stage of
  the rows of its two loaded tiles (the node features and the aggregated messages).
-/
import proofs.«416374_j4140348473947_1_alg».proof.Proof.Gen.KernelIdeal.Skeleton
import proofs.«416374_j4140348473947_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.Gcl

open Idealize.ShloMosaic Idealize.ShloMosaic.ValueIdx Cert.KernelIdeal Cert.KernelIdeal.Gen

/-! ## The scaling constant -/

/-- The constant that scales the aggregated messages denotes the rational 1/100. -/
theorem inv_100 : Named.named (F := Ideal) Cert.KernelIdeal.κ "inv_100" (φ := .f32) 0x3C23D70A#32 = ((1 / 100 : ℝ) : EReal) :=
  IdealRules.named_const.ideal_named_scalar _ _ _ _ rfl

/-! ## The first product: a row of length 256 against the 256 × 128 weights -/

/-- The left operand is read at the result's row … -/
theorem lhs_first_0 (i : S2000x128.Idx) (c : dot_S2000x256_S256x128_S2000x128_1_0_0_1_n_n.contr.Idx) :
    (dot_S2000x256_S256x128_S2000x128_1_0_0_1_n_n.lhsIdx i c 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- … and at the summation index along its columns; -/
theorem lhs_first_1 (i : S2000x128.Idx) (c : dot_S2000x256_S256x128_S2000x128_1_0_0_1_n_n.contr.Idx) :
    (dot_S2000x256_S256x128_S2000x128_1_0_0_1_n_n.lhsIdx i c 1).val = (c ⟨0, by decide⟩).val :=
  dot_S2000x256_S256x128_S2000x128_1_0_0_1_n_n.lhsIdx_val_of_single rfl i c
/-- the right operand at the summation index along its rows … -/
theorem rhs_first_0 (i : S2000x128.Idx) (c : dot_S2000x256_S256x128_S2000x128_1_0_0_1_n_n.contr.Idx) :
    (dot_S2000x256_S256x128_S2000x128_1_0_0_1_n_n.rhsIdx i c 0).val = (c ⟨0, by decide⟩).val :=
  dot_S2000x256_S256x128_S2000x128_1_0_0_1_n_n.rhsIdx_val_of_single rfl i c
/-- … and at the result's column. -/
theorem rhs_first_1 (i : S2000x128.Idx) (c : dot_S2000x256_S256x128_S2000x128_1_0_0_1_n_n.contr.Idx) :
    (dot_S2000x256_S256x128_S2000x128_1_0_0_1_n_n.rhsIdx i c 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The first product into a zero accumulator, at row `p` and column `q`: `Σ_k A (p, k) · B (k, q)`. -/
theorem matmul_first_apply (A : FVec Ideal S2000x256 .bf16) (B : FVec Ideal S256x128 .bf16) (p : Fin 2000) (q : Fin 128) :
    matmul dot_S2000x256_S256x128_S2000x128_1_0_0_1_n_n none A B (constant (F := Ideal) S2000x128 .f32 0x00000000#32) (ix2 p q)
      = ∑ k : Fin 256, A (ix2 p k) * B (ix2 k q) := by
  refine (Ideal.matmul_constant_zero_apply dot_S2000x256_S256x128_S2000x128_1_0_0_1_n_n none A B (ix2 p q)).trans ?_
  rw [← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_first_0 _ _
    | ⟨1, _⟩ => exact (lhs_first_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_first_0 _ _).trans hk
    | ⟨1, _⟩ => exact rhs_first_1 _ _)
  rw [el, er]

/-! ## The second product: a row of length 128 against the 128 × 128 weights -/

/-- The left operand is read at the result's row … -/
theorem lhs_second_0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and at the summation index along its columns; -/
theorem lhs_second_1 (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c
/-- the right operand at the summation index along its rows … -/
theorem rhs_second_0 (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c
/-- … and at the result's column. -/
theorem rhs_second_1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The second product into a zero accumulator, at row `p` and column `q`: `Σ_k A (p, k) · B (k, q)`. -/
theorem matmul_second_apply (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  refine (Ideal.matmul_constant_zero_apply dot_S2000x128_S128x128_S2000x128_1_0_0_1_n_n none A B (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_second_0 _ _
    | ⟨1, _⟩ => exact (lhs_second_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_second_0 _ _).trans hk
    | ⟨1, _⟩ => exact rhs_second_1 _ _)
  rw [el, er]

/-! ## The bias row and the joined row -/

/-- A bias vector viewed as one row and repeated over the 2000 rows reads, at `(p, q)`, its entry `q`. -/
theorem node_bias_apply (b : FVec Ideal S128 .f32) (h₁ : S128.ShapeCasts S1x128) (h₂ : S1x128.Broadcasts S2000x128) (p : Fin 2000) (q : Fin 128) :
    broadcastTo S2000x128 (shapeCast S1x128 b h₁) h₂ (ix2 p q) = b (ix1 q) :=
  (broadcastTo_1b_ab_apply (shapeCast S1x128 b h₁) h₂ p q).trans (shapeCast_a_1a_apply b h₁ 0 q)

/-- Two tiles of 128 columns laid side by side read, in row `p`, as the two rows laid end to end. -/
theorem node_concat_apply (u v : FVec Ideal S2000x128 .bf16) (h : Shape.Concatenates [S2000x128, S2000x128] S2000x256 1)
    (p : Fin 2000) (l : Fin 256) :
    concatenate S2000x256 1 [⟨S2000x128, u⟩, ⟨S2000x128, v⟩] h (ix2 p l)
      = join (fun k => u (ix2 p k)) (fun k => v (ix2 p k)) l := by
  unfold join
  by_cases hl : l.val < 128
  · rw [dif_pos hl]
    exact concatenate_pair_apply_left (1 : Fin S2000x256.rank) u v h (ix2 p l) rfl (ix2 p ⟨l.val, hl⟩)
      (fun b => match b with | ⟨0, _⟩ => rfl | ⟨1, _⟩ => rfl)
  · rw [dif_neg hl]
    exact concatenate_pair_apply_right (1 : Fin S2000x256.rank) u v h (ix2 p l) rfl rfl
      (ix2 p ⟨l.val - 128, by have := l.isLt; omega⟩)
      (fun b hb => match b, hb with | ⟨0, _⟩, _ => rfl | ⟨1, _⟩, hb => absurd rfl hb)
      (by show l.val - 128 + 128 = l.val; omega)

/-- A value times its own logistic, narrowed to the product's format, is `silu` of the entry. -/
theorem node_silu_apply (Z : FVec Ideal S2000x128 .f32) (h : FTy.bits .bf16 < FTy.bits .f32) (p : Fin 2000) (l : Fin 128) :
    truncf .bf16 (mulf Z (logistic Z)) h (ix2 p l) = silu (Z (ix2 p l)) := rfl

/-- The stored tile is the node stage of the two loaded tiles, row by row. -/
theorem node_payload (x0 x1 : Vec Ideal S2000x128 .f32) (x2 : Vec Ideal S256x128 .f32) (x3 : Vec Ideal S128 .f32)
    (x4 : Vec Ideal S128x128 .f32) (x5 : Vec Ideal S128 .f32) :
    k1_pay1 (F := Ideal) x0 x1 x2 x3 x4 x5 = nodeArr x0 x1 x2 x3 x4 x5 := by
  funext i
  obtain ⟨p, q, rfl⟩ : ∃ (p : Fin 2000) (q : Fin 128), i = ix2 p q := ⟨i 0, i 1, eq_ix2 i⟩
  refine Eq.trans ?_ (nodeArr_apply x0 x1 x2 x3 x4 x5 p q).symm
  unfold k1_pay1 nodeRow dense
  -- the residual: both sides add the node's own entry to the second dense layer's
  refine (addf_apply _ _ _).trans (congrArg₂ (· + ·) rfl ?_)
  -- the second dense layer: a product plus the bias
  refine (addf_apply _ _ _).trans (congrArg₂ (· + ·) ?_ (node_bias_apply x5 _ _ p q))
  refine (matmul_second_apply _ _ p q).trans (Finset.sum_congr rfl fun l _ => ?_)
  refine congrArg₂ (· * ·) ?_ rfl
  -- its operand is `silu` of the first dense layer
  refine (node_silu_apply _ _ p l).trans (congrArg silu ?_)
  refine (addf_apply _ _ _).trans (congrArg₂ (· + ·) ?_ (node_bias_apply x3 _ _ p l))
  refine (matmul_first_apply _ _ p l).trans (Finset.sum_congr rfl fun k _ => ?_)
  refine congrArg₂ (· * ·) ?_ rfl
  -- whose operand is the node's row joined with its messages scaled by 1/100
  refine (node_concat_apply _ _ _ p k).trans ?_
  congr 1
  funext m
  show shapeCast S2000x128 x1 _ (ix2 p m) * Named.named (F := Ideal) Cert.KernelIdeal.κ "inv_100" (φ := .f32) 0x3C23D70A#32 = x1 (ix2 p m) * ((1 / 100 : ℝ) : EReal)
  rw [shapeCast_self, inv_100]

end Cert.Gcl

end
-- ==== Proof.Region1.lean ====
/-
  The node array the second launch leaves: tile `t` of the output holds the node stage of tile `t` of the node
  features and of the aggregated messages, the tiles are rows `2000 t … 2000 t + 1999` and cover the array, so the whole
  array is the node stage of the two whole arrays, row by row.
-/
import proofs.«416374_j4140348473947_1_alg».proof.Proof.Gen.KernelIdeal.Frame
import proofs.«416374_j4140348473947_1_alg».proof.Proof.NodeBody
import Idealize.ShloMosaic.Lib.Pipeline.Value

set_option maxRecDepth 16384

noncomputable section

namespace Cert.Gcl

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## The node stage depends on its operands only through the rows it reads -/

/-- The node stage of two arrays at an index is the node stage of two other arrays at another index as soon as the
    rows read agree entry by entry, the column is the same, and the weights are the same. -/
theorem nodeArr_congr_rows {R R' : Nat} (h a : (⟨2, ![R, 128]⟩ : Shape).Idx → EReal)
    (H A : (⟨2, ![R', 128]⟩ : Shape).Idx → EReal)
    (W1 W1' : (⟨2, ![256, 128]⟩ : Shape).Idx → EReal) (b1 b1' : (⟨1, ![128]⟩ : Shape).Idx → EReal)
    (W2 W2' : (⟨2, ![128, 128]⟩ : Shape).Idx → EReal) (b2 b2' : (⟨1, ![128]⟩ : Shape).Idx → EReal)
    (r : Fin R) (r' : Fin R') (k : Fin 128)
    (hh : ∀ l : Fin 128, h (ix2 r l) = H (ix2 r' l)) (ha : ∀ l : Fin 128, a (ix2 r l) = A (ix2 r' l))
    (hW1 : W1 = W1') (hb1 : b1 = b1') (hW2 : W2 = W2') (hb2 : b2 = b2') :
    nodeArr h a W1 b1 W2 b2 (ix2 r k) = nodeArr H A W1' b1' W2' b2' (ix2 r' k) := by
  subst hW1 hb1 hW2 hb2
  rw [nodeArr_apply, nodeArr_apply]
  have e1 : rowOf h r = rowOf H r' := funext hh
  have e2 : rowOf a r = rowOf A r' := funext ha
  rw [e1, e2]

/-! ## The launch's index maps, decided once over its 25 points -/

theorem node_zeros2 : (![0, 0] : Fin 2 → Nat) = fun _ => 0 := funext fun a => by fin_cases a <;> rfl

theorem node_zeros1 : (![0] : Fin 1 → Nat) = fun _ => 0 := funext fun a => by fin_cases a <;> rfl

/-- At every point the two row operands' tiles sit where the output's tile sits, the tile index is `(t, 0)` with
    `t ≤ 24`, and each weight operand's block is its whole array. -/
theorem node_index_facts : ∀ t : Fin cfg1.N,
    win1_0.index t (0 : Fin 2) = win1_6.index t (0 : Fin 2) ∧ win1_0.index t (1 : Fin 2) = win1_6.index t (1 : Fin 2)
    ∧ win1_1.index t (0 : Fin 2) = win1_6.index t (0 : Fin 2) ∧ win1_1.index t (1 : Fin 2) = win1_6.index t (1 : Fin 2)
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) ≤ 24 ∧ win1_6.index t (1 : Fin 2) = 0 :=
  (by decide +kernel : ∀ t : Fin grid1.N, _)

/-- Every tile index below 25 is some point's. -/
theorem node_index_onto : ∀ q : Fin 25, ∃ t : Fin cfg1.N, win1_6.index t = ![q.val, 0] :=
  (by decide +kernel : ∀ q : Fin 25, ∃ t : Fin grid1.N, win1_6.index t = ![q.val, 0])

/-! ## A tile's entries, read where they sit in the arrays -/

/-- An entry of point `t`'s tile of the node features is the array's entry `2000 t` rows further down. -/
theorem node_feature_tile (c : Dev nD) (t : Fin cfg1.N) (y : S2000x128.Idx) (k : S50000x128.Idx)
    (hk0 : (k 0).val = win1_6.index t (0 : Fin 2) * 2000 + (y 0).val) (hk1 : (k 1).val = (y 1).val) :
    (iblk1 (F := Ideal) V c 0 t : Vec Ideal S2000x128 .f32) y = (V c main_arg0 : S50000x128.Idx → EReal) k := by
  obtain ⟨e0, e1, -, -, -, -, -, -, -, -, -, e11⟩ := node_index_facts t
  unfold iblk1
  rw [View.read_apply]
  show V c main_arg0 _ = V c main_arg0 _
  congr 1
  funext a
  apply Fin.ext
  match a with
  | ⟨0, _⟩ => show win1_0.index t (0 : Fin 2) * 2000 + 1 * (y 0).val = (k 0).val; rw [e0, hk0]; omega
  | ⟨1, _⟩ => show win1_0.index t (1 : Fin 2) * 128 + 1 * (y 1).val = (k 1).val; rw [e1, e11, hk1]; omega

/-- The same for the aggregated messages. -/
theorem node_message_tile (c : Dev nD) (t : Fin cfg1.N) (y : S2000x128.Idx) (k : S50000x128.Idx)
    (hk0 : (k 0).val = win1_6.index t (0 : Fin 2) * 2000 + (y 0).val) (hk1 : (k 1).val = (y 1).val) :
    (iblk1 (F := Ideal) V c 1 t : Vec Ideal S2000x128 .f32) y = (V c main_v9 : S50000x128.Idx → EReal) k := by
  obtain ⟨-, -, e2, e3, -, -, -, -, -, -, -, e11⟩ := node_index_facts t
  unfold iblk1
  rw [View.read_apply]
  show V c main_v9 _ = V c main_v9 _
  congr 1
  funext a
  apply Fin.ext
  match a with
  | ⟨0, _⟩ => show win1_1.index t (0 : Fin 2) * 2000 + 1 * (y 0).val = (k 0).val; rw [e2, hk0]; omega
  | ⟨1, _⟩ => show win1_1.index t (1 : Fin 2) * 128 + 1 * (y 1).val = (k 1).val; rw [e3, e11, hk1]; omega

/-- Each weight operand's block is the whole array, at every point. -/
theorem node_weight1_block (c : Dev nD) (t : Fin cfg1.N) :
    (iblk1 (F := Ideal) V c 2 t : Vec Ideal S256x128 .f32) = (V c main_arg6 : S256x128.Idx → EReal) := by
  obtain ⟨-, -, -, -, e4, e5, -, -, -, -, -, -⟩ := node_index_facts t
  funext y
  unfold iblk1
  rw [View.read_apply]
  show V c main_arg6 _ = V c main_arg6 _
  congr 1
  funext a
  apply Fin.ext
  match a with
  | ⟨0, _⟩ => show win1_2.index t (0 : Fin 2) * 256 + 1 * (y 0).val = (y 0).val; rw [e4]; omega
  | ⟨1, _⟩ => show win1_2.index t (1 : Fin 2) * 128 + 1 * (y 1).val = (y 1).val; rw [e5]; omega

theorem node_bias1_block (c : Dev nD) (t : Fin cfg1.N) :
    (iblk1 (F := Ideal) V c 3 t : Vec Ideal S128 .f32) = (V c main_arg7 : S128.Idx → EReal) := by
  obtain ⟨-, -, -, -, -, -, e6, -, -, -, -, -⟩ := node_index_facts t
  funext y
  unfold iblk1
  rw [View.read_apply]
  show V c main_arg7 _ = V c main_arg7 _
  congr 1
  funext a
  apply Fin.ext
  match a with
  | ⟨0, _⟩ => show win1_3.index t (0 : Fin 1) * 128 + 1 * (y 0).val = (y 0).val; rw [e6]; omega

theorem node_weight2_block (c : Dev nD) (t : Fin cfg1.N) :
    (iblk1 (F := Ideal) V c 4 t : Vec Ideal S128x128 .f32) = (V c main_arg8 : S128x128.Idx → EReal) := by
  obtain ⟨-, -, -, -, -, -, -, e7, e8, -, -, -⟩ := node_index_facts t
  funext y
  unfold iblk1
  rw [View.read_apply]
  show V c main_arg8 _ = V c main_arg8 _
  congr 1
  funext a
  apply Fin.ext
  match a with
  | ⟨0, _⟩ => show win1_4.index t (0 : Fin 2) * 128 + 1 * (y 0).val = (y 0).val; rw [e7]; omega
  | ⟨1, _⟩ => show win1_4.index t (1 : Fin 2) * 128 + 1 * (y 1).val = (y 1).val; rw [e8]; omega

theorem node_bias2_block (c : Dev nD) (t : Fin cfg1.N) :
    (iblk1 (F := Ideal) V c 5 t : Vec Ideal S128 .f32) = (V c main_arg9 : S128.Idx → EReal) := by
  obtain ⟨-, -, -, -, -, -, -, -, -, e9, -, -⟩ := node_index_facts t
  funext y
  unfold iblk1
  rw [View.read_apply]
  show V c main_arg9 _ = V c main_arg9 _
  congr 1
  funext a
  apply Fin.ext
  match a with
  | ⟨0, _⟩ => show win1_5.index t (0 : Fin 1) * 128 + 1 * (y 0).val = (y 0).val; rw [e9]; omega

/-! ## What a point writes back -/

/-- Point `t` writes back tile `t` of the node stage of the whole arrays. -/
theorem node_flushed (c : Dev nD) (t : Fin cfg1.N) :
    (dat1 (F := Ideal) V c).flushed 6 t
      = ((cfg1.win 6).blk t).view.read (Elt Ideal)
          (nodeArr (V c main_arg0) (V c main_v9) (V c main_arg6) (V c main_arg7) (V c main_arg8) (V c main_arg9)) := by
  show (cfg1.win 6).cut (grid1.coords t) ((dat1 (F := Ideal) V c).after 6 t) = _
  rw [after1_6]
  unfold out1_6
  rw [View.canon_unit_zero node_zeros2]
  simp only [View.ld_unit_zero (S := S2000x128) node_zeros2, View.ld_unit_zero (S := S256x128) node_zeros2,
    View.ld_unit_zero (S := S128x128) node_zeros2, View.ld_unit_zero (S := S128) node_zeros1]
  rw [node_payload]
  rw [node_weight1_block V c t, node_bias1_block V c t, node_weight2_block V c t, node_bias2_block V c t]
  obtain ⟨-, -, -, -, -, -, -, -, -, -, e10, e11⟩ := node_index_facts t
  funext j
  obtain ⟨r, k, rfl⟩ : ∃ (r : Fin 2000) (k : Fin 128), j = ix2 r k := ⟨j 0, j 1, eq_ix2 j⟩
  rw [View.read_apply]
  have hr : win1_6.index t (0 : Fin 2) * 2000 + r.val < 50000 := by have := r.isLt; omega
  have hemb : ((cfg1.win 6).blk t).view.emb (ix2 r k)
      = (ix2 ⟨win1_6.index t (0 : Fin 2) * 2000 + r.val, hr⟩ k : S50000x128.Idx) := by
    funext a
    apply Fin.ext
    match a with
    | ⟨0, _⟩ => show win1_6.index t (0 : Fin 2) * 2000 + 1 * r.val = win1_6.index t (0 : Fin 2) * 2000 + r.val; omega
    | ⟨1, _⟩ => show win1_6.index t (1 : Fin 2) * 128 + 1 * k.val = k.val; rw [e11]; omega
  rw [hemb]
  exact nodeArr_congr_rows (iblk1 (F := Ideal) V c 0 t) (iblk1 (F := Ideal) V c 1 t) (V c main_arg0) (V c main_v9)
    (V c main_arg6) (V c main_arg6) (V c main_arg7) (V c main_arg7) (V c main_arg8) (V c main_arg8)
    (V c main_arg9) (V c main_arg9) r ⟨win1_6.index t (0 : Fin 2) * 2000 + r.val, hr⟩ k
    (fun l => node_feature_tile V c t (ix2 r l) (ix2 ⟨win1_6.index t (0 : Fin 2) * 2000 + r.val, hr⟩ l) rfl rfl)
    (fun l => node_message_tile V c t (ix2 r l) (ix2 ⟨win1_6.index t (0 : Fin 2) * 2000 + r.val, hr⟩ l) rfl rfl)
    rfl rfl rfl rfl

/-! ## The tiles cover the array -/

/-- An index of the array is in point `t`'s tile iff each coordinate is in the tile's range on its axis. -/
theorem node_mem_tile (t : Fin cfg1.N) (i : S50000x128.Idx) :
    i ∈ ((cfg1.win 6).blk t).view.set
      ↔ ∀ a : Fin 2, win1_6.index t a * S2000x128.size a ≤ (i a).val
          ∧ (i a).val < win1_6.index t a * S2000x128.size a + S2000x128.size a := by
  show i ∈ ((View.whole main_v10).slice (win1_6.rect t)).set ↔ _
  rw [View.set_slice_whole, Rect.mem_set_unit]
  exact Iff.rfl

/-- Row `r` lies in the tile of the point whose tile index is `r / 2000`: 25 tiles of 2000 rows are the 50000 rows. -/
theorem node_cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := node_index_onto ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [node_mem_tile]
  intro a
  match a with
  | ⟨0, _⟩ =>
    show win1_6.index t (0 : Fin 2) * 2000 ≤ (i 0).val ∧ (i 0).val < win1_6.index t (0 : Fin 2) * 2000 + 2000
    omega
  | ⟨1, _⟩ =>
    show win1_6.index t (1 : Fin 2) * 128 ≤ (i 1).val ∧ (i 1).val < win1_6.index t (1 : Fin 2) * 128 + 128
    omega

/-! ## The array after the launch -/

/-- After the second launch the node array is the node stage of the arrays the launch found, whatever they are. -/
theorem node_region (c : Dev nD) :
    (dat1 (F := Ideal) V c).arrAt 6 cfg1.N
      = nodeArr (V c main_arg0) (V c main_v9) (V c main_arg6) (V c main_arg7) (V c main_arg8) (V c main_arg9) :=
  (dat1 (F := Ideal) V c).arrAt_eq_of_cover 6
    (nodeArr (V c main_arg0) (V c main_v9) (V c main_arg6) (V c main_arg7) (V c main_arg8) (V c main_arg9))
    (fun t _ => node_flushed V c t) node_cover

end Cert.Gcl

end
-- ==== Proof.Domain.lean ====
/-
  What the precondition says of the edge list, and what it buys: every node id lies in `0 … 49999`, so every start
  index of the two row lookups lies inside the table and no looked-up row is replaced by the fill value.
-/
import proofs.«416374_j4140348473947_1_alg».proof.Proof.HostTerms
import proofs.«416374_j4140348473947_1_alg».proof.Pre_finite_inputs
import proofs.«416374_j4140348473947_1_alg».proof.Proof.Gen.Pre_finite_inputs
import Idealize.ShloMosaic.Lib.ValueIdx
import Idealize.ShloMosaic.Lib.ReduceAll
import Idealize.ShloMosaic.Lib.StableHlo.Predicate

noncomputable section

namespace Cert.Gcl

open Idealize.ShloMosaic Idealize.ShloMosaic.ValueIdx

/-- An id, as a signed 32-bit word, lies in `0 … 49999`. -/
def InRange (w : BitVec 32) : Prop := IntOp.cmpi .sge w 0#32 = 1#1 ∧ IntOp.cmpi .slt w 50000#32 = 1#1

/-! ### Words

A signed word in `0 … 49999` is not below zero, so counting it "from the end" leaves it unchanged, and it passes the
two tests `0 ≤ ·` and `· ≤ 49999`. -/

theorem toInt_zero32 : (0#32 : BitVec 32).toInt = 0 := by decide

theorem toInt_50000 : (50000#32 : BitVec 32).toInt = 50000 :=
  StableHlo.Predicate.toInt_ofNat_small 50000 (by norm_num)

theorem toInt_49999 : (49999#32 : BitVec 32).toInt = 49999 :=
  StableHlo.Predicate.toInt_ofNat_small 49999 (by norm_num)

/-- `InRange` as two inequalities between signed values. -/
theorem inRange_iff (w : BitVec 32) : InRange w ↔ 0 ≤ w.toInt ∧ w.toInt < 50000 := by
  unfold InRange
  rw [IntOp.cmpi_sge, IntOp.cmpi_slt, toInt_zero32, toInt_50000]

/-- An id in range is not negative as a signed word. -/
theorem slt_zero_of_inRange {w : BitVec 32} (hw : InRange w) : IntOp.cmpi .slt w 0#32 = 0#1 := by
  have h := (inRange_iff w).1 hw
  rcases BitVec.eq_zero_or_eq_one (IntOp.cmpi .slt w 0#32) with e | e
  · exact e
  · rw [IntOp.cmpi_slt, toInt_zero32] at e
    omega

/-- So its start index is the id itself. -/
theorem start_of_inRange {w : BitVec 32} (hw : InRange w) :
    Scalar.select (IntOp.cmpi .slt w 0#32) (IntOp.addi w 50000#32) w = w := by
  rw [slt_zero_of_inRange hw, select_zero]

/-- And the start index passes both bounds tests. -/
theorem tests_of_inRange {w : BitVec 32} (hw : InRange w) :
    IntOp.andi (IntOp.cmpi .sge w 0#32) (IntOp.cmpi .sle w 49999#32) = 1#1 := by
  have h := (inRange_iff w).1 hw
  refine IntOp.andi_eq_one.2 ⟨hw.1, ?_⟩
  rw [IntOp.cmpi_sle, toInt_49999]
  omega

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = (1#1 : BitVec 1) from by decide]
    exact foldl_andi_one f l fun n hn => h n (List.mem_cons_of_mem _ hn)

/-! ### The precondition read at an index -/

/-- Under the precondition every node id of the edge list lies in `0 … 49999`. -/
theorem ids_in_range (a0 : FVec Ideal Cert.Pre_finite_inputs.S50000x128 .f32) (a1 : IVec Cert.Pre_finite_inputs.S2x800000 32)
    (a2 : FVec Ideal Cert.Pre_finite_inputs.S256x128 .f32) (a3 : FVec Ideal Cert.Pre_finite_inputs.S128 .f32)
    (a4 : FVec Ideal Cert.Pre_finite_inputs.S128x128 .f32) (a5 : FVec Ideal Cert.Pre_finite_inputs.S128 .f32)
    (a6 : FVec Ideal Cert.Pre_finite_inputs.S256x128 .f32) (a7 : FVec Ideal Cert.Pre_finite_inputs.S128 .f32)
    (a8 : FVec Ideal Cert.Pre_finite_inputs.S128x128 .f32) (a9 : FVec Ideal Cert.Pre_finite_inputs.S128 .f32)
    (h : Cert.Pre_finite_inputs.fn (F := Ideal) a0 a1 a2 a3 a4 a5 a6 a7 a8 a9 = fun _ => 1#1)
    (i : Cert.Pre_finite_inputs.S2x800000.Idx) : InRange (a1 i) := by
  -- the precondition is a conjunction of ten tests; the last one is the test on the edge list
  have h0 := congrFun h ValueIdx.ix0
  dsimp only [Cert.Pre_finite_inputs.fn, Cert.Pre_finite_inputs.fn_part1, Cert.Pre_finite_inputs.fn_part2] at h0
  have h1 := (IntOp.andi_eq_one.1 h0).2
  -- that test is an "all" over the edge list: it holds at every entry
  haveI : Subsingleton Cert.Pre_finite_inputs.S_.Idx := ⟨fun a b => funext fun d => d.elim0⟩
  have h2 := Host.reduce_andi_all _ _ _ _ _ h1 i
  -- at an entry it is the conjunction of the two compares
  exact IntOp.andi_eq_one.1 h2

/-! ### The two rows of the edge list -/

/-- The source ids are entries of the edge list. -/
theorem ids0_in_range (x1 : IVec Cert.KernelIdeal.S2x800000 32) (h : ∀ i, InRange (x1 i)) (i : Cert.KernelIdeal.S800000.Idx) :
    InRange (K.ids0 x1 i) := by
  -- a slice of a reshape reads one entry of the edge list
  unfold K.ids0 shapeCast extractStridedSlice
  exact h _

/-- The target ids are entries of the edge list. -/
theorem ids1_in_range (x1 : IVec Cert.KernelIdeal.S2x800000 32) (h : ∀ i, InRange (x1 i)) (i : Cert.KernelIdeal.S800000.Idx) :
    InRange (K.ids1 x1 i) := by
  unfold K.ids1 shapeCast extractStridedSlice
  exact h _

/-! ### No looked-up row is replaced -/

/-- A start index is the id of some edge, counted from the end when negative. -/
theorem starts_apply (r : IVec Cert.KernelIdeal.S800000 32) (i : Cert.KernelIdeal.S800000x1.Idx) :
    ∃ e, K.starts r i = Scalar.select (IntOp.cmpi .slt (r e) 0#32) (IntOp.addi (r e) 50000#32) (r e) :=
  ⟨_, rfl⟩

/-- With every id in range every start index passes the bounds tests, at every edge. -/
theorem inside_eq_one (r : IVec Cert.KernelIdeal.S800000 32) (hr : ∀ i, InRange (r i)) (e : Cert.KernelIdeal.S800000.Idx) :
    K.inside r e = 1#1 := by
  unfold K.inside
  rw [Host.reduce_eq_foldl]
  -- the "all" along the unit axis starts from 1 and meets only 1s
  refine foldl_andi_one _ _ fun i _ => ?_
  obtain ⟨k, hk⟩ := starts_apply r i
  show IntOp.andi (IntOp.cmpi .sge (K.starts r i) 0#32) (IntOp.cmpi .sle (K.starts r i) 49999#32) = 1#1
  rw [hk, start_of_inRange (hr k)]
  exact tests_of_inRange (hr k)

/-- With every id in range every start index is inside the table: no looked-up row is replaced. -/
theorem rowsOrFill_eq_rows (x0 : FVec Ideal Cert.KernelIdeal.S50000x128 .f32) (r : IVec Cert.KernelIdeal.S800000 32)
    (hr : ∀ i, InRange (r i)) : K.rowsOrFill (F := Ideal) x0 r = K.rows (F := Ideal) x0 r := by
  funext i
  unfold K.rowsOrFill
  rw [select_apply]
  -- the mask at an element is the bounds test of the element's edge
  have hm : broadcastInDim Cert.KernelIdeal.S800000x128 ![0] Cert.KernelIdeal.Facts₀.bcast_S800000_S800000x128_0 (K.inside r) i = 1#1 :=
    inside_eq_one r hr _
  rw [hm, select_one]

end Cert.Gcl

end
-- ==== Proof.KernelValue.lean ====
/-
  The tiled program's two results as functions of its arguments.

  Under the precondition every node id lies in `0 … 49999`, so no looked-up row is replaced by the fill value: the
  first launch finds the plain looked-up source and target rows and leaves their edge stage, the message array; the
  second launch finds the node features and the message array summed into the rows of the source ids, and leaves their
  node stage, the updated node features.
-/
import proofs.«416374_j4140348473947_1_alg».proof.Proof.KRun
import proofs.«416374_j4140348473947_1_alg».proof.Proof.HostSide
import proofs.«416374_j4140348473947_1_alg».proof.Proof.Region0
import proofs.«416374_j4140348473947_1_alg».proof.Proof.Region1
import proofs.«416374_j4140348473947_1_alg».proof.Proof.Domain
import proofs.«416374_j4140348473947_1_alg».proof.Defs

set_option maxRecDepth 16384

noncomputable section

namespace Cert.Gcl

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The message array: the edge stage of the looked-up source and target rows. -/
def msgs (c : Dev nD) : FVec Ideal S800000x128 .f32 :=
  edgeArr (K.rows (F := Ideal) (m ((c : Thread nD τ).loc main_arg0)) (K.ids0 (m ((c : Thread nD τ).loc main_arg1)))) (K.rows (F := Ideal) (m ((c : Thread nD τ).loc main_arg0)) (K.ids1 (m ((c : Thread nD τ).loc main_arg1))))
    (m ((c : Thread nD τ).loc main_arg2)) (m ((c : Thread nD τ).loc main_arg3)) (m ((c : Thread nD τ).loc main_arg4)) (m ((c : Thread nD τ).loc main_arg5))

/-- The updated node features: the node stage of the node features and the aggregated messages. -/
def feats (c : Dev nD) : FVec Ideal S50000x128 .f32 :=
  nodeArr (m ((c : Thread nD τ).loc main_arg0)) (K.sums (F := Ideal) (K.ids0 (m ((c : Thread nD τ).loc main_arg1))) (msgs m c))
    (m ((c : Thread nD τ).loc main_arg6)) (m ((c : Thread nD τ).loc main_arg7)) (m ((c : Thread nD τ).loc main_arg8)) (m ((c : Thread nD τ).loc main_arg9))

/-- Under the precondition every entry of the edge list is a node id in range. -/
theorem ids_ok (hpre : Cert.Pre_KernelIdeal m) (c : Dev nD) (i : S2x800000.Idx) : InRange ((m ((c : Thread nD τ).loc main_arg1)) i) :=
  ids_in_range _ _ _ _ _ _ _ _ _ _ (hpre c) i

/-- What the first launch leaves is the message array. -/
theorem W4_msgs (hpre : Cert.Pre_KernelIdeal m) (c : Dev nD) : W4 m ρ c (Proc.devRef .tc main_v6) = msgs m c := by
  rw [W4_v6, edge_region (V3 m ρ) c]
  show edgeArr (W3 m ρ c (Proc.devRef .tc main_v4)) (W3 m ρ c (Proc.devRef .tc main_v5)) (W3 m ρ c (Proc.devRef .tc main_arg2))
    (W3 m ρ c (Proc.devRef .tc main_arg3)) (W3 m ρ c (Proc.devRef .tc main_arg4)) (W3 m ρ c (Proc.devRef .tc main_arg5)) = _
  rw [W3_v4, W3_v5, W3_arg2, W3_arg3, W3_arg4, W3_arg5,
    rowsOrFill_eq_rows _ _ (ids0_in_range _ (ids_ok m hpre c)), rowsOrFill_eq_rows _ _ (ids1_in_range _ (ids_ok m hpre c))]
  rfl

/-- At the end the message array is still what the first launch left. -/
theorem W6_msgs (hpre : Cert.Pre_KernelIdeal m) (c : Dev nD) : W6 m ρ c (Proc.devRef .tc main_v6) = msgs m c :=
  (W6_v6 m ρ c).trans ((W4_v6 m ρ c).symm.trans (W4_msgs m ρ hpre c))

/-- What the second launch leaves is the array of updated node features. -/
theorem W6_feats (hpre : Cert.Pre_KernelIdeal m) (c : Dev nD) : W6 m ρ c (Proc.devRef .tc main_v10) = feats m c := by
  rw [W6_v10, node_region (V5 m ρ) c]
  show nodeArr (W5 m ρ c (Proc.devRef .tc main_arg0)) (W5 m ρ c (Proc.devRef .tc main_v9)) (W5 m ρ c (Proc.devRef .tc main_arg6))
    (W5 m ρ c (Proc.devRef .tc main_arg7)) (W5 m ρ c (Proc.devRef .tc main_arg8)) (W5 m ρ c (Proc.devRef .tc main_arg9)) = _
  rw [W5_arg0, W5_v9, W5_arg6, W5_arg7, W5_arg8, W5_arg9, W4_msgs m ρ hpre c]
  rfl

/-- The tiled program's run with its two results named as functions of the arguments. -/
theorem kernel_run (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v10) = feats m c
      ∧ r.2.mem ((c.tc : Thread nD τ).loc main_v6) = msgs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (W6_feats m ρ hpre c), (h c).2.1.trans (W6_msgs m ρ hpre c), (h c).2.2⟩)
    (run_named (F := Ideal) m ρ)

end Cert.Gcl

end
-- ==== Proof.RefEdge.lean ====
/-
  The edge stage of the whole-array program: its second result, read at an index, is the edge stage of the rows of
  its two looked-up arrays.

  The whole-array program computes, for the array `C` of joined endpoint rows (800000 rows of length 256),
  `Z₁ = C · W₁ + b₁`, `H = Z₁ · σ(Z₁)`, `Z₂ = H · W₂ + b₂` and returns `Z₂ · σ(Z₂)`, with `σ z` spelled
  `1 / (1 + e^(-z))`. Read at the entry `(e, j)`, each matrix product is a finite sum along row `e`, each bias is
  read at its column, and the spelled `σ` is the logistic function; so the entry is `edgeRow` of the two looked-up
  rows of edge `e` at column `j`.
-/
import proofs.«416374_j4140348473947_1_alg».proof.Proof.Gen.ReferenceIdeal.Read
import proofs.«416374_j4140348473947_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Gcl

open Idealize.ShloMosaic Idealize.ShloMosaic.ValueIdx Cert.ReferenceIdeal Cert.ReferenceIdeal.Read

/-- The 32-bit pattern `0x3F800000` (sign 0, biased exponent 127, fraction 0) denotes `2^0 · 1 = 1`. -/
theorem f32_one : Ideal.ofBits .f32 0x3F800000#32 = (1 : EReal) := by
  -- the three fields of the pattern: sign bit clear, exponent field 127 (the bias), fraction field 0
  have hs : ((0x3F800000#32 : BitVec 32).extractLsb' (8 + 23) 1 == 1#1) = false := by decide
  have hx : ((0x3F800000#32 : BitVec 32).extractLsb' 23 8).toNat = 127 := by decide
  have hf : ((0x3F800000#32 : BitVec 32).extractLsb' 0 23).toNat = 0 := by decide
  show Ideal.ieee 8 23 (0x3F800000#32 : BitVec 32) = 1
  unfold Ideal.ieee
  simp only [hs, hx, hf]
  -- a normal number: `(2^23 + 0) · 2^(127 - 127 - 23) = 1`
  norm_num

/-- `z · (1 / (1 + e^(-z)))`, with both ones given by their bit patterns, is `silu z`: the quotient is the
    logistic function by its definition. -/
theorem silu_spelled (z : Ideal .f32) :
    FloatOps.mulf z (FloatOps.hostDivf (FloatOps.ofBits .f32 0x3F800000#32)
      (FloatOps.addf (FloatOps.ofBits .f32 0x3F800000#32) (FloatOps.hostUnary .exp (FloatOps.hostNegf z)))) = silu z := by
  show z * Ideal.div (Ideal.ofBits .f32 0x3F800000#32) (Ideal.ofBits .f32 0x3F800000#32 + Ideal.exp (-z)) = z * Ideal.logistic z
  rw [f32_one]
  rfl

section
variable (x0 : FVec Ideal S50000x128 .f32) (x1 : IVec S2x800000 32) (x2 : FVec Ideal S256x128 .f32)
  (x3 : FVec Ideal S128 .f32) (x4 : FVec Ideal S128x128 .f32) (x5 : FVec Ideal S128 .f32)

/-- Row `e` of the joined array is the source row of edge `e` followed by its target row: a column below 128 falls in
    the first piece at the same column, a column from 128 on falls in the second piece at that column less 128. -/
theorem joined_apply (e : Fin 800000) (l : Fin 256) :
    val_main_v18 (F := Ideal) x0 x1 (ix2 e l)
      = join (rowOf (val_main_v10 (F := Ideal) x0 x1) e) (rowOf (val_main_v17 (F := Ideal) x0 x1) e) l := by
  unfold val_main_v18 join rowOf
  by_cases h : l.val < 128
  · rw [dif_pos h]
    exact concatenate_pair_apply_left (t := S800000x256) (s₁ := S800000x128) (s₂ := S800000x128) 1
      (val_main_v10 (F := Ideal) x0 x1) (val_main_v17 (F := Ideal) x0 x1) _ (ix2 e l) rfl (ix2 e ⟨l.val, h⟩)
      (fun b => match b with | ⟨0, _⟩ => rfl | ⟨1, _⟩ => rfl)
  · rw [dif_neg h]
    exact concatenate_pair_apply_right (t := S800000x256) (s₁ := S800000x128) (s₂ := S800000x128) 1
      (val_main_v10 (F := Ideal) x0 x1) (val_main_v17 (F := Ideal) x0 x1) _ (ix2 e l) rfl rfl
      (ix2 e ⟨l.val - 128, by have := l.isLt; omega⟩)
      (fun b hb => match b, hb with | ⟨0, _⟩, _ => rfl | ⟨1, _⟩, hb => absurd rfl hb)
      (by show (l.val - 128) + 128 = l.val; omega)

/-- The first dense layer before its activation: entry `(e, k)` of `C · W₁ + b₁` is the dense layer of the joined row of
    edge `e` at column `k`. -/
theorem pre1_apply (e : Fin 800000) (k : Fin 128) :
    val_main_v22 (F := Ideal) x0 x1 x2 x3 (ix2 e k)
      = dense (join (rowOf (val_main_v10 (F := Ideal) x0 x1) e) (rowOf (val_main_v17 (F := Ideal) x0 x1) e)) x2 x3 k := by
  -- the summand `l` of entry `(e, k)` of the product reads `C` at `(e, l)` and `W₁` at `(l, k)`; the bias is read at `k`
  have el : ∀ l : Fin 256, lidx_main_v19 (ix2 e k) l = ix2 e l := fun l =>
    funext fun a => Fin.ext (by match a with | ⟨0, _⟩ => rfl | ⟨1, _⟩ => rfl)
  have er : ∀ l : Fin 256, ridx_main_v19 (ix2 e k) l = ix2 l k := fun l =>
    funext fun a => Fin.ext (by match a with | ⟨0, _⟩ => rfl | ⟨1, _⟩ => rfl)
  have eb : idx_main_v20 (idx_main_v21 (ix2 e k)) = ix1 k :=
    funext fun a => Fin.ext (by match a with | ⟨0, _⟩ => rfl)
  rw [val_main_v22_apply, val_main_v19_apply, val_main_v21_apply, val_main_v20_apply, eb]
  unfold dense
  show (∑ l : Fin 256, _) + _ = (∑ l : Fin 256, _) + _
  congr 1
  refine Finset.sum_congr rfl fun l _ => ?_
  rw [el, er, joined_apply]

/-- The hidden layer: entry `(e, k)` of `Z₁ · σ(Z₁)` is `silu` of the first dense layer. -/
theorem ref_hidden_apply (e : Fin 800000) (k : Fin 128) :
    val_main_v23 (F := Ideal) x0 x1 x2 x3 (ix2 e k)
      = silu (dense (join (rowOf (val_main_v10 (F := Ideal) x0 x1) e) (rowOf (val_main_v17 (F := Ideal) x0 x1) e)) x2 x3 k) := by
  rw [val_main_v23_apply, val_main_call0_v5_apply, val_main_call0_v4_apply, val_main_call0_cst_0_apply,
    val_main_call0_v3_apply, val_main_call0_v2_apply, val_main_call0_cst_apply, val_main_call0_v1_apply,
    val_main_call0_v0_apply, pre1_apply, silu_spelled]

/-- The second dense layer before its activation: entry `(e, j)` of `H · W₂ + b₂` is the dense layer of the hidden row
    of edge `e` at column `j`. -/
theorem pre2_apply (e : Fin 800000) (j : Fin 128) :
    val_main_v27 (F := Ideal) x0 x1 x2 x3 x4 x5 (ix2 e j)
      = dense (fun k => silu (dense (join (rowOf (val_main_v10 (F := Ideal) x0 x1) e)
          (rowOf (val_main_v17 (F := Ideal) x0 x1) e)) x2 x3 k)) x4 x5 j := by
  have el : ∀ k : Fin 128, lidx_main_v24 (ix2 e j) k = ix2 e k := fun k =>
    funext fun a => Fin.ext (by match a with | ⟨0, _⟩ => rfl | ⟨1, _⟩ => rfl)
  have er : ∀ k : Fin 128, ridx_main_v24 (ix2 e j) k = ix2 k j := fun k =>
    funext fun a => Fin.ext (by match a with | ⟨0, _⟩ => rfl | ⟨1, _⟩ => rfl)
  have eb : idx_main_v25 (idx_main_v26 (ix2 e j)) = ix1 j :=
    funext fun a => Fin.ext (by match a with | ⟨0, _⟩ => rfl)
  rw [val_main_v27_apply, val_main_v24_apply, val_main_v26_apply, val_main_v25_apply, eb]
  -- the outer dense layer written out, the inner one kept folded
  show (∑ k : Fin 128, _) + _ = (∑ k : Fin 128, silu (dense _ x2 x3 k) * x4 (ix2 k j)) + x5 (ix1 j)
  congr 1
  refine Finset.sum_congr rfl fun k _ => ?_
  rw [el, er, ref_hidden_apply]

end

/-- The message array is the edge stage of the looked-up source and target rows. -/
theorem ref_edge (x0 : FVec Ideal S50000x128 .f32) (x1 : IVec S2x800000 32) (x2 : FVec Ideal S256x128 .f32)
    (x3 : FVec Ideal S128 .f32) (x4 : FVec Ideal S128x128 .f32) (x5 : FVec Ideal S128 .f32) :
    val_main_v28 (F := Ideal) x0 x1 x2 x3 x4 x5
      = edgeArr (val_main_v10 (F := Ideal) x0 x1) (val_main_v17 (F := Ideal) x0 x1) x2 x3 x4 x5 := by
  funext i
  obtain ⟨e, j, rfl⟩ : ∃ (e : Fin 800000) (j : Fin 128), i = ix2 e j := ⟨i 0, i 1, eq_ix2 i⟩
  rw [edgeArr_apply, val_main_v28_apply, val_main_call1_v5_apply, val_main_call1_v4_apply, val_main_call1_cst_0_apply,
    val_main_call1_v3_apply, val_main_call1_v2_apply, val_main_call1_cst_apply, val_main_call1_v1_apply,
    val_main_call1_v0_apply, pre2_apply, silu_spelled]
  rfl

end Cert.Gcl

end
-- ==== Proof.RefNode.lean ====
/-
  The node stage of the whole-array program: its first result, read at an index, is the node stage of the rows of
  the node features and of the aggregated messages.

  The program joins each node's own row with its aggregated messages divided by 100, applies a dense layer, `z · σ(z)`
  spelt as `z · (1 / (1 + e^(-z)))`, a second dense layer, and adds the node's own row back. Dividing by 100 is
  multiplying by 1/100 on every extended real, the infinities included, so the program's row is the node stage's row.
-/
import proofs.«416374_j4140348473947_1_alg».proof.Proof.Gen.ReferenceIdeal.Read
import proofs.«416374_j4140348473947_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.Gcl

open Idealize.ShloMosaic Idealize.ShloMosaic.ValueIdx Cert.ReferenceIdeal Cert.ReferenceIdeal.Read

namespace RefNode

/-- The f32 pattern `0x42C80000` (exponent 133, fraction 2²² + 2¹⁹) is the real 100. -/
theorem ofBits_hundred : Ideal.ofBits .f32 0x42C80000#32 = ((100 : ℝ) : EReal) := by
  simp [Ideal.ofBits, Ideal.ieee, -EReal.coe_mul]; norm_num

section
variable (x0 : FVec Ideal S50000x128 .f32) (x1 : IVec S2x800000 32) (x2 : FVec Ideal S256x128 .f32)
  (x3 : FVec Ideal S128 .f32) (x4 : FVec Ideal S128x128 .f32) (x5 : FVec Ideal S128 .f32) (x6 : FVec Ideal S256x128 .f32)
  (x7 : FVec Ideal S128 .f32) (x8 : FVec Ideal S128x128 .f32) (x9 : FVec Ideal S128 .f32)

/-- The aggregated messages divided by 100, at row `n` and column `l`: the aggregated row's entry times 1/100. -/
theorem scaled_apply (n : Fin 50000) (l : Fin 128) :
    val_main_v33 (F := Ideal) x0 x1 x2 x3 x4 x5 (ix2 n l)
      = rowOf (val_main_v31 (F := Ideal) x0 x1 x2 x3 x4 x5) n l * ((1 / 100 : ℝ) : EReal) := by
  rw [val_main_v33_apply, val_main_v32_apply, val_main_cst_3_apply, Ideal.hostDivf_def, Ideal.ofBits_def, ofBits_hundred,
    Ideal.div_coe (by norm_num : (100 : ℝ) ≠ 0)]
  rfl

/-- The joined array at row `n` and column `k` of 256: the node's own row laid before its scaled aggregated row. -/
theorem joined_apply (n : Fin 50000) (k : Fin 256) :
    val_main_v34 (F := Ideal) x0 x1 x2 x3 x4 x5 (ix2 n k)
      = join (rowOf x0 n) (fun l => rowOf (val_main_v31 (F := Ideal) x0 x1 x2 x3 x4 x5) n l * ((1 / 100 : ℝ) : EReal)) k := by
  unfold val_main_v34 join
  by_cases h : k.val < 128
  · rw [dif_pos h]
    exact concatenate_pair_apply_left _ x0 _ _ (ix2 n k) rfl (ix2 n ⟨k.val, h⟩)
      (fun b => by match b with | ⟨0, _⟩ => rfl | ⟨1, _⟩ => rfl)
  · rw [dif_neg h]
    have hk : k.val - 128 < 128 := by have := k.isLt; omega
    refine (concatenate_pair_apply_right (s₂ := S50000x128) _ x0 _ _ (ix2 n k) rfl rfl (ix2 n (⟨k.val - 128, hk⟩ : Fin 128))
      (fun b hb => by match b, hb with | ⟨0, _⟩, _ => rfl | ⟨1, _⟩, hb => exact absurd rfl hb) ?_).trans
      (scaled_apply x0 x1 x2 x3 x4 x5 n ⟨k.val - 128, hk⟩)
    show k.val - 128 + 128 = k.val
    omega

/-- The first dense layer at row `n`, column `k`. -/
theorem pre_apply (n : Fin 50000) (k : Fin 128) :
    val_main_v38 (F := Ideal) x0 x1 x2 x3 x4 x5 x6 x7 (ix2 n k)
      = dense (join (rowOf x0 n) (fun l => rowOf (val_main_v31 (F := Ideal) x0 x1 x2 x3 x4 x5) n l * ((1 / 100 : ℝ) : EReal)))
          x6 x7 k := by
  have hl : ∀ l : Fin 256, lidx_main_v35 (ix2 n k) l = ix2 n l := fun l =>
    funext fun a => by match a with | ⟨0, _⟩ => rfl | ⟨1, _⟩ => rfl
  have hr : ∀ l : Fin 256, ridx_main_v35 (ix2 n k) l = ix2 l k := fun l =>
    funext fun a => by match a with | ⟨0, _⟩ => rfl | ⟨1, _⟩ => rfl
  have hb : idx_main_v36 (idx_main_v37 (ix2 n k)) = ix1 k :=
    funext fun a => by match a with | ⟨0, _⟩ => rfl
  rw [val_main_v38_apply, val_main_v35_apply, val_main_v37_apply, val_main_v36_apply, hb, Ideal.addf_def,
    Finset.sum_congr rfl (fun l _ => by rw [hl l, hr l, joined_apply])]
  rfl

/-- The hidden layer at row `n`, column `k`: `z · (1 / (1 + e^(-z)))` of the first dense layer's `z`, which is `silu z`. -/
theorem hidden_apply (n : Fin 50000) (k : Fin 128) :
    val_main_v39 (F := Ideal) x0 x1 x2 x3 x4 x5 x6 x7 (ix2 n k)
      = silu (dense (join (rowOf x0 n) (fun l => rowOf (val_main_v31 (F := Ideal) x0 x1 x2 x3 x4 x5) n l * ((1 / 100 : ℝ) : EReal)))
          x6 x7 k) := by
  rw [val_main_v39_apply, val_main_call2_v5_apply, val_main_call2_v4_apply, val_main_call2_cst_0_apply,
    val_main_call2_v3_apply, val_main_call2_v2_apply, val_main_call2_cst_apply, val_main_call2_v1_apply,
    val_main_call2_v0_apply, pre_apply, Ideal.ofBits_def, Ideal.ofBits_one_f32]
  rfl

end

end RefNode

open RefNode in
/-- The updated node features are the node stage of the node features and the aggregated messages. -/
theorem ref_node (x0 : FVec Ideal S50000x128 .f32) (x1 : IVec S2x800000 32) (x2 : FVec Ideal S256x128 .f32)
    (x3 : FVec Ideal S128 .f32) (x4 : FVec Ideal S128x128 .f32) (x5 : FVec Ideal S128 .f32) (x6 : FVec Ideal S256x128 .f32)
    (x7 : FVec Ideal S128 .f32) (x8 : FVec Ideal S128x128 .f32) (x9 : FVec Ideal S128 .f32) :
    val_main_v44 (F := Ideal) x0 x1 x2 x3 x4 x5 x6 x7 x8 x9
      = nodeArr x0 (val_main_v31 (F := Ideal) x0 x1 x2 x3 x4 x5) x6 x7 x8 x9 := by
  funext i
  obtain ⟨n, j, rfl⟩ : ∃ (n : Fin 50000) (j : Fin 128), i = ix2 n j := ⟨i 0, i 1, eq_ix2 i⟩
  have hl : ∀ k : Fin 128, lidx_main_v40 (ix2 n j) k = ix2 n k := fun k =>
    funext fun a => by match a with | ⟨0, _⟩ => rfl | ⟨1, _⟩ => rfl
  have hr : ∀ k : Fin 128, ridx_main_v40 (ix2 n j) k = ix2 k j := fun k =>
    funext fun a => by match a with | ⟨0, _⟩ => rfl | ⟨1, _⟩ => rfl
  have hb : idx_main_v41 (idx_main_v42 (ix2 n j)) = ix1 j :=
    funext fun a => by match a with | ⟨0, _⟩ => rfl
  rw [nodeArr_apply, val_main_v44_apply, val_main_v43_apply, val_main_v40_apply, val_main_v42_apply, val_main_v41_apply,
    hb, Ideal.addf_def, Ideal.addf_def,
    Finset.sum_congr rfl (fun k _ => by rw [hl k, hr k, hidden_apply])]
  rfl

end Cert.Gcl

end
-- ==== Proof.Bridge.lean ====
/-
  The host side of the two programs is one computation: the row lookups of the whole-array program are the lookups
  of the tiled program without the fill rule, on the same start indices, and its aggregation is the tiled program's
  aggregation, applied to its own message array.
-/
import proofs.«416374_j4140348473947_1_alg».proof.Proof.HostTerms
import proofs.«416374_j4140348473947_1_alg».proof.Proof.Gen.ReferenceIdeal.Read

noncomputable section

namespace Cert.Gcl

open Idealize.ShloMosaic Cert.ReferenceIdeal.Read

variable {F : FTy → Type} [FloatOps F]

/-- The source rows. -/
theorem rows_src (x0 : FVec F Cert.KernelIdeal.S50000x128 .f32) (x1 : IVec Cert.KernelIdeal.S2x800000 32) :
    K.rows (F := F) x0 (K.ids0 x1) = val_main_v10 (F := F) x0 x1 := rfl

/-- The target rows. -/
theorem rows_tgt (x0 : FVec F Cert.KernelIdeal.S50000x128 .f32) (x1 : IVec Cert.KernelIdeal.S2x800000 32) :
    K.rows (F := F) x0 (K.ids1 x1) = val_main_v17 (F := F) x0 x1 := rfl

/-- The aggregated messages. -/
theorem sums_msgs (x0 : FVec F Cert.KernelIdeal.S50000x128 .f32) (x1 : IVec Cert.KernelIdeal.S2x800000 32)
    (x2 : FVec F Cert.KernelIdeal.S256x128 .f32) (x3 : FVec F Cert.KernelIdeal.S128 .f32)
    (x4 : FVec F Cert.KernelIdeal.S128x128 .f32) (x5 : FVec F Cert.KernelIdeal.S128 .f32) :
    K.sums (F := F) (K.ids0 x1) (val_main_v28 (F := F) x0 x1 x2 x3 x4 x5) = val_main_v31 (F := F) x0 x1 x2 x3 x4 x5 := rfl

end Cert.Gcl

end
-- ==== Proof.lean ====
/-
  One message-passing layer of a graph network, tiled, against the same layer written on whole arrays.

  Both programs take node features `h` (50000 rows of 128), an edge list (two rows of 800000 node ids: source and
  target), and the weights and biases of two small networks. For each edge they look up the feature rows of its two
  endpoints, join them, and apply two dense layers each followed by `silu z = z · σ(z)`: the edge's message. The
  messages are summed into the rows of their source nodes; each node's sum, divided by 100, is joined to the node's own
  row, passed through a dense layer, `silu` and a second dense layer, and added to the node's own row. The results are
  the updated node features and the message array.

  The tiled program runs the two networks in two launches, over tiles of 4000 edges and of 2000 nodes, and leaves the
  lookups and the summation to the host; it multiplies by a constant named `1/100` where the other divides by 100, and
  its lookup replaces a row whose id is out of range by a fill value where the other moves the id to the nearest row.
  Over the extended reals the product with `1/100` is the quotient by 100, a matrix product into a zero accumulator is
  the plain sum, and `σ` spelled `1 / (1 + e^(-z))` is the logistic function; under the precondition every id is in
  range, so no row is filled or moved. Tile by tile, the tiled program therefore computes the same rows
  (`Cert.Gcl.edgeRow`, `Cert.Gcl.nodeRow`) as the whole-array program, and the tiles cover the arrays.
-/
import proofs.«416374_j4140348473947_1_alg».proof.Defs
import proofs.«416374_j4140348473947_1_alg».proof.Proof.Gen.Kernel
import proofs.«416374_j4140348473947_1_alg».proof.Proof.Gen.Kernel.Skeleton
import proofs.«416374_j4140348473947_1_alg».proof.Proof.Gen.Kernel.Launch
import proofs.«416374_j4140348473947_1_alg».proof.Proof.Gen.Kernel.Points
import proofs.«416374_j4140348473947_1_alg».proof.Proof.Gen.Kernel.Frame
import proofs.«416374_j4140348473947_1_alg».proof.Proof.Gen.KernelIdeal
import proofs.«416374_j4140348473947_1_alg».proof.Proof.Gen.KernelIdeal.Skeleton
import proofs.«416374_j4140348473947_1_alg».proof.Proof.Gen.KernelIdeal.Launch
import proofs.«416374_j4140348473947_1_alg».proof.Proof.Gen.KernelIdeal.Points
import proofs.«416374_j4140348473947_1_alg».proof.Proof.Gen.KernelIdeal.Frame
import proofs.«416374_j4140348473947_1_alg».proof.Proof.Gen.ReferenceIdeal
import proofs.«416374_j4140348473947_1_alg».proof.Proof.Gen.ReferenceIdeal.Run
import proofs.«416374_j4140348473947_1_alg».proof.Proof.Gen.ReferenceIdeal.Read
import proofs.«416374_j4140348473947_1_alg».proof.Proof.Gen.Pre_finite_inputs
import proofs.«416374_j4140348473947_1_alg».proof.Proof.KernelValue
import proofs.«416374_j4140348473947_1_alg».proof.Proof.RefEdge
import proofs.«416374_j4140348473947_1_alg».proof.Proof.RefNode
import proofs.«416374_j4140348473947_1_alg».proof.Proof.Bridge
import Idealize.ShloMosaic.Adequacy
import Idealize.ShloMosaic.Init

noncomputable section

namespace Cert.Proof

open Idealize.ShloMosaic Idealize.ShloMosaic.TcCoe Idealize.SL.Sem

/-! ## The whole-array program's results are the tiled program's -/

section Results

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- From memories that agree on the arguments, the whole-array program's message array is the tiled program's. -/
theorem ref_msgs
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v28 (F := Ideal) m' c = Cert.Gcl.msgs m c := by
  rw [Cert.ReferenceIdeal.Read.val_main_v28_eq, Cert.Gcl.ref_edge, ← Cert.Gcl.rows_src, ← Cert.Gcl.rows_tgt, h0, h1, h2, h3, h4, h5]
  rfl

/-- From memories that agree on the arguments, the whole-array program's updated node features are the tiled program's. -/
theorem ref_feats
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v44 (F := Ideal) m' c = Cert.Gcl.feats m c := by
  rw [Cert.ReferenceIdeal.Read.val_main_v44_eq, Cert.Gcl.ref_node, ← Cert.Gcl.sums_msgs, Cert.Gcl.ref_edge, ← Cert.Gcl.rows_src, ← Cert.Gcl.rows_tgt,
    h0, h1, h2, h3, h4, h5, h6, h7, h8, h9]
  rfl

end Results

/-! ## The claims -/

/-- The tiled program runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The whole-array program runs and keeps its arguments: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one named constant: the scaling of the aggregated messages denotes the rational `1/100`. -/
theorem preserves : Cert.preserves_Kernel_KernelIdeal :=
  IdealRules.named_const.statement Cert.KernelIdeal.κ "inv_100" .f32 0x3C23D70A#32 ((1 / 100 : ℝ) : EReal) rfl

/-- From memories agreeing on the arguments both programs end with the same updated node features and the same
    message array: the tiled program's run names them as functions of the arguments, and the whole-array program's
    run ends at the same functions. -/
theorem algebraic : Cert.algebraic_KernelIdeal_ReferenceIdeal := by
  intro m ρ m' ρ' hpre hagree
  refine ⟨fun c => Cert.Gcl.feats m c, fun c => Cert.Gcl.msgs m c, Cert.Gcl.kernel_run m ρ hpre, ?_⟩
  refine (θ_run Cert.ReferenceIdeal.defs _ _).mono (fun r h c => ?_) (Cert.ReferenceIdeal.Value.run (F := Ideal) m' ρ')
  obtain ⟨h0, h1, h2, h3, h4, h5, h6, h7, h8, h9⟩ := hagree c
  exact ⟨(h c).1.trans (ref_feats m m' c h0 h1 h2 h3 h4 h5 h6 h7 h8 h9), (h c).2.1.trans (ref_msgs m m' c h0 h1 h2 h3 h4 h5), (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
